-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1536 : Shape := ⟨3, ![32, 512, 1536]⟩
abbrev S32x512 : Shape := ⟨2, ![32, 512]⟩
abbrev S50 : Shape := ⟨1, ![50]⟩
abbrev S1536x50 : Shape := ⟨2, ![1536, 50]⟩
abbrev S_ : Shape := ⟨0, ![]⟩

class Facts : Prop where
  bcast_S_S32x512x1536 : S_.BroadcastsInDim S32x512x1536 (![] : Fin 0 → Fin S32x512x1536.rank)
  reducesTo_S32x512x1536_S_d0_1_2 : S32x512x1536.ReducesTo [0, 1, 2] S_
  h_S_ : 0 < S_.numel
  bcast_S_S50 : S_.BroadcastsInDim S50 (![] : Fin 0 → Fin S50.rank)
  reducesTo_S50_S_d0 : S50.ReducesTo [0] S_
  bcast_S_S1536x50 : S_.BroadcastsInDim S1536x50 (![] : Fin 0 → Fin S1536x50.rank)
  reducesTo_S1536x50_S_d0_1 : S1536x50.ReducesTo [0, 1] S_

variable [Facts]

def fn_part1 {F : FTy → Type} [FloatOps F] (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  main_v18

def fn {F : FTy → Type} [FloatOps F] (main_arg0 : FVec F S32x512x1536 .f32) (main_arg1 : IVec S32x512 32) (main_arg2 : FVec F S50 .f32) (main_arg3 : FVec F S1536x50 .f32) (main_arg4 : FVec F S50 .f32) : IVec S_ 1 :=
  let main_v0 : FVec F S32x512x1536 .f32 := Host.absf main_arg0
  let main_cst : FVec F S_ .f32 := constant S_ .f32 0x7F800000#32
  let main_v1 : FVec F S32x512x1536 .f32 := broadcastInDim S32x512x1536 ![] bcast_S_S32x512x1536 main_cst
  let main_v2 : IVec S32x512x1536 1 := cmpf .olt main_v0 main_v1
  let main_c : IVec S_ 1 := constantI S_ 1 1#1
  let main_v3 : IVec S_ 1 := (fun x v => Host.reduce IntOp.andi x v reducesTo_S32x512x1536_S_d0_1_2 h_S_) main_v2 main_c
  let main_v4 : FVec F S50 .f32 := Host.absf main_arg2
  let main_cst_0 : FVec F S_ .f32 := constant S_ .f32 0x7F800000#32
  let main_v5 : FVec F S50 .f32 := broadcastInDim S50 ![] bcast_S_S50 main_cst_0
  let main_v6 : IVec S50 1 := cmpf .olt main_v4 main_v5
  let main_c_1 : IVec S_ 1 := constantI S_ 1 1#1
  let main_v7 : IVec S_ 1 := (fun x v => Host.reduce IntOp.andi x v reducesTo_S50_S_d0 h_S_) main_v6 main_c_1
  let main_v8 : IVec S_ 1 := andi main_v3 main_v7
  let main_v9 : FVec F S1536x50 .f32 := Host.absf main_arg3
  let main_cst_2 : FVec F S_ .f32 := constant S_ .f32 0x7F800000#32
  let main_v10 : FVec F S1536x50 .f32 := broadcastInDim S1536x50 ![] bcast_S_S1536x50 main_cst_2
  let main_v11 : IVec S1536x50 1 := cmpf .olt main_v9 main_v10
  let main_c_3 : IVec S_ 1 := constantI S_ 1 1#1
  let main_v12 : IVec S_ 1 := (fun x v => Host.reduce IntOp.andi x v reducesTo_S1536x50_S_d0_1 h_S_) main_v11 main_c_3
  let main_v13 : IVec S_ 1 := andi main_v8 main_v12
  let main_v14 : FVec F S50 .f32 := Host.absf main_arg4
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_v13 main_v16
-- ==== Kernel.lean ====
abbrev S32x512x1536 : Shape := ⟨3, ![32, 512, 1536]⟩
abbrev S32x512 : Shape := ⟨2, ![32, 512]⟩
abbrev S50 : Shape := ⟨1, ![50]⟩
abbrev S1536x50 : Shape := ⟨2, ![1536, 50]⟩
abbrev S16384 : Shape := ⟨1, ![16384]⟩
abbrev S_ : Shape := ⟨0, ![]⟩
abbrev S16384x1 : Shape := ⟨2, ![16384, 1]⟩
abbrev S16384x1536 : Shape := ⟨2, ![16384, 1536]⟩
abbrev S1x50 : Shape := ⟨2, ![1, 50]⟩
abbrev S1x1 : Shape := ⟨2, ![1, 1]⟩
abbrev S2048x1536 : Shape := ⟨2, ![2048, 1536]⟩
abbrev S2048x1 : Shape := ⟨2, ![2048, 1]⟩
abbrev S2048x50 : Shape := ⟨2, ![2048, 50]⟩
abbrev S2048 : Shape := ⟨1, ![2048]⟩
abbrev S1x2048x50 : Shape := ⟨3, ![1, 2048, 50]⟩
abbrev S1 : Shape := ⟨1, ![1]⟩
abbrev S1x1x1 : Shape := ⟨3, ![1, 1, 1]⟩

abbrev nBuf : Space → Nat
  | .hbm => 48
  | .vmem => 11
  | .smem => 0
  | _ => 0

abbrev bufTy : (tb : Table) → Fin (tcTables nBuf tb) → BufTy
  | .hbm, ⟨0, _⟩ => ⟨S32x512x1536, .f32⟩
  | .hbm, ⟨1, _⟩ => ⟨S32x512, .i32⟩
  | .hbm, ⟨2, _⟩ => ⟨S50, .f32⟩
  | .hbm, ⟨3, _⟩ => ⟨S1536x50, .f32⟩
  | .hbm, ⟨4, _⟩ => ⟨S50, .f32⟩
  | .hbm, ⟨5, _⟩ => ⟨S16384, .i32⟩
  | .hbm, ⟨6, _⟩ => ⟨S_, .i32⟩
  | .hbm, ⟨7, _⟩ => ⟨S50, .i32⟩
  | .hbm, ⟨8, _⟩ => ⟨S_, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S_, .i32⟩
  | .hbm, ⟨21, _⟩ => ⟨S16384, .i32⟩
  | .hbm, ⟨22, _⟩ => ⟨S50, .i32⟩
  | .hbm, ⟨23, _⟩ => ⟨S50, .f32⟩
  | .hbm, ⟨24, _⟩ => ⟨S_, .f32⟩
  | .hbm, ⟨25, _⟩ => ⟨S50, .f32⟩
  | .hbm, ⟨26, _⟩ => ⟨S50, .f32⟩
  | .hbm, ⟨27, _⟩ => ⟨S_, .f32⟩
  | .hbm, ⟨28, _⟩ => ⟨S50, .f32⟩
  | .hbm, ⟨29, _⟩ => ⟨S50, .f32⟩
  | .hbm, ⟨30, _⟩ => ⟨S50, .f32⟩
  | .hbm, ⟨31, _⟩ => ⟨S16384x1536, .f32⟩
  | .hbm, ⟨32, _⟩ => ⟨S16384x1, .i32⟩
  | .hbm, ⟨33, _⟩ => ⟨S1x50, .f32⟩
  | .hbm, ⟨34, _⟩ => ⟨S1x50, .f32⟩
  | .hbm, ⟨35, _⟩ => ⟨S1x1, .f32⟩
  | .hbm, ⟨36, _⟩ => ⟨S1x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S2048x1536, .f32⟩
  | .local _ .vmem, ⟨1, _⟩ => ⟨S2048x1536, .f32⟩
  | .local _ .vmem, ⟨2, _⟩ => ⟨S1536x50, .f32⟩
  | .local _ .vmem, ⟨3, _⟩ => ⟨S1x50, .f32⟩
  | .local _ .vmem, ⟨4, _⟩ => ⟨S2048x1, .i32⟩
  | .local _ .vmem, ⟨5, _⟩ => ⟨S2048x1, .i32⟩
  | .local _ .vmem, ⟨6, _⟩ => ⟨S1x50, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S32x512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v75 : BitVec 1 := Scalar.cmpi .eq arg0 c7_i32
  let v76 : BitVec 32 := Scalar.extui v75
  let c0_i32_30 : BitVec 32 := 0#32
  let v77 : BitVec 1 := Scalar.cmpi .ne v76 c0_i32_30
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S32x512_S16384 : S32x512.ShapeCasts S16384
  bcast_S_S50 : S_.BroadcastsInDim S50 (![] : Fin 0 → Fin S50.rank)
  bcast_S_S16384 : S_.BroadcastsInDim S16384 (![] : Fin 0 → Fin S16384.rank)
  bcast_S16384_S16384x1_0 : S16384.BroadcastsInDim S16384x1 (![0] : Fin 1 → Fin S16384x1.rank)
  shapeCasts_S32x512x1536_S16384x1536 : S32x512x1536.ShapeCasts S16384x1536
  shapeCasts_S16384_S16384x1 : S16384.ShapeCasts S16384x1
  shapeCasts_S50_S1x50 : S50.ShapeCasts S1x50
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x1536_S2048x1536_0_0 : ∀ a, (![0, 0] : Fin 2 → Nat) a + S2048x1536.size a ≤ S2048x1536.size a
  h_S2048x1536 : 0 < S2048x1536.numel
  shapeCasts_S2048x1536_S2048x1536 : S2048x1536.ShapeCasts S2048x1536
  bitsLt_bf16_f32 : FTy.bits .bf16 < FTy.bits .f32
  inb_S1536x50_S1536x50_0_0 : ∀ a, (![0, 0] : Fin 2 → Nat) a + S1536x50.size a ≤ S1536x50.size a
  h_S1536x50 : 0 < S1536x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S2048x50 : S1x50.Broadcasts S2048x50
  reduces_S2048x50_S2048 : S2048x50.Reduces [1] S2048
  shapeCasts_S2048_S2048x1 : S2048.ShapeCasts S2048x1
  broadcasts_S2048x1_S2048x50 : S2048x1.Broadcasts S2048x50
  iota_S2048x50_d1_w32 : S2048x50.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S2048x50_S1x2048x50 : S2048x50.ShapeCasts S1x2048x50
  reduces_S1x2048x50_S1 : S1x2048x50.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  scatter_S50_S16384x1_S16384_n_0_0_1_wf : ScatterDims.WF S50 S16384x1 S16384 [] [0] [0] 1
  dot_S2048x1536_S1536x50_S2048x50_1_0_0_1_n_n_wf : DotDims.WF S2048x1536 S1536x50 S2048x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1536.size a ≤ S16384x1536.size a
  hwx0_0 : ∀ i : grid0.Coords, EltTy.bits .f32 = 32 ∨ (Rect.block (s := S16384x1536) S2048x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x50.size a ≤ S1536x50.size a
  hwx0_1 : ∀ i : grid0.Coords, EltTy.bits .f32 = 32 ∨ (Rect.block (s := S1536x50) S1536x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .i32 = 32 ∨ (Rect.block (s := S16384x1) S2048x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def scatter_S50_S16384x1_S16384_n_0_0_1 : ScatterDims S50 S16384x1 S16384 where
  updateWindowDims := []
  insertedWindowDims := [0]
  scatterDimsToOperandDims := [0]
  indexVectorDim := 1
  wf := scatter_S50_S16384x1_S16384_n_0_0_1_wf
def dot_S2048x1536_S1536x50_S2048x50_1_0_0_1_n_n : DotDims S2048x1536 S1536x50 S2048x50 where
  lhsContracting := [1]
  rhsContracting := [0]
  lhsNonContracting := [0]
  rhsNonContracting := [1]
  lhsBatch := []
  rhsBatch := []
  wf := dot_S2048x1536_S1536x50_S2048x50_1_0_0_1_n_n_wf

abbrev win0_0 : Pipeline.Window sig grid0 :=
  Pipeline.Window.ofSpec (Memref.whole main_v17) S2048x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1536x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x512x1536 : Shape := ⟨3, ![32, 512, 1536]⟩
abbrev S32x512 : Shape := ⟨2, ![32, 512]⟩
abbrev S50 : Shape := ⟨1, ![50]⟩
abbrev S1536x50 : Shape := ⟨2, ![1536, 50]⟩
abbrev S32x512x50 : Shape := ⟨3, ![32, 512, 50]⟩
abbrev S1x1x50 : Shape := ⟨3, ![1, 1, 50]⟩
abbrev S_ : Shape := ⟨0, ![]⟩
abbrev S32x512x1 : Shape := ⟨3, ![32, 512, 1]⟩
abbrev S16384 : Shape := ⟨1, ![16384]⟩
abbrev S16384x1 : Shape := ⟨2, ![16384, 1]⟩

abbrev nBuf : Space → Nat
  | .hbm => 117
  | .vmem => 0
  | .smem => 0
  | _ => 0

abbrev bufTy : (tb : Table) → Fin (tcTables nBuf tb) → BufTy
  | .hbm, ⟨0, _⟩ => ⟨S32x512x1536, .f32⟩
  | .hbm, ⟨1, _⟩ => ⟨S32x512, .i32⟩
  | .hbm, ⟨2, _⟩ => ⟨S50, .f32⟩
  | .hbm, ⟨3, _⟩ => ⟨S1536x50, .f32⟩
  | .hbm, ⟨4, _⟩ => ⟨S50, .f32⟩
  | .hbm, ⟨5, _⟩ => ⟨S32x512x50, .f32⟩
  | .hbm, ⟨6, _⟩ => ⟨S1x1x50, .f32⟩
  | .hbm, ⟨7, _⟩ => ⟨S32x512x50, .f32⟩
  | .hbm, ⟨8, _⟩ => ⟨S32x512x50, .f32⟩
  | .hbm, ⟨9, _⟩ => ⟨S_, .f32⟩
  | .hbm, ⟨10, _⟩ => ⟨S32x512, .f32⟩
  | .hbm, ⟨11, _⟩ => ⟨S_, .f32⟩
  | .hbm, ⟨12, _⟩ => ⟨S32x512, .f32⟩
  | .hbm, ⟨13, _⟩ => ⟨S32x512, .f32⟩
  | .hbm, ⟨14, _⟩ => ⟨S32x512x1, .f32⟩
  | .hbm, ⟨15, _⟩ => ⟨S32x512x50, .f32⟩
  | .hbm, ⟨16, _⟩ => ⟨S32x512x50, .f32⟩
  | .hbm, ⟨17, _⟩ => ⟨S32x512x50, .f32⟩
  | .hbm, ⟨18, _⟩ => ⟨S_, .f32⟩
  | .hbm, ⟨19, _⟩ => ⟨S32x512, .f32⟩
  | .hbm, ⟨20, _⟩ => ⟨S32x512x1, .f32⟩
  | .hbm, ⟨21, _⟩ => ⟨S32x512x50, .f32⟩
  | .hbm, ⟨22, _⟩ => ⟨S32x512x50, .f32⟩
  | .hbm, ⟨23, _⟩ => ⟨S16384, .i32⟩
  | .hbm, ⟨24, _⟩ => ⟨S_, .i32⟩
  | .hbm, ⟨25, _⟩ => ⟨S50, .i32⟩
  | .hbm, ⟨26, _⟩ => ⟨S_, .i32⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S_, .i32⟩
  | .hbm, ⟨39, _⟩ => ⟨S16384, .i32⟩
  | .hbm, ⟨40, _⟩ => ⟨S50, .i32⟩
  | .hbm, ⟨41, _⟩ => ⟨S50, .f32⟩
  | .hbm, ⟨42, _⟩ => ⟨S_, .f32⟩
  | .hbm, ⟨43, _⟩ => ⟨S50, .f32⟩
  | .hbm, ⟨44, _⟩ => ⟨S50, .f32⟩
  | .hbm, ⟨45, _⟩ => ⟨S_, .f32⟩
  | .hbm, ⟨46, _⟩ => ⟨S50, .f32⟩
  | .hbm, ⟨47, _⟩ => ⟨S50, .f32⟩
  | .hbm, ⟨48, _⟩ => ⟨S_, .i32⟩
  | .hbm, ⟨49, _⟩ => ⟨S32x512, .i32⟩
  | .hbm, ⟨50, _⟩ => ⟨S32x512, .i1⟩
  | .hbm, ⟨51, _⟩ => ⟨S_, .i32⟩
  | .hbm, ⟨52, _⟩ => ⟨S32x512, .i32⟩
  | .hbm, ⟨53, _⟩ => ⟨S32x512, .i32⟩
  | .hbm, ⟨54, _⟩ => ⟨S32x512, .i32⟩
  | .hbm, ⟨55, _⟩ => ⟨S32x512x1, .i32⟩
  | .hbm, ⟨56, _⟩ => ⟨S32x512, .f32⟩
  | .hbm, ⟨57, _⟩ => ⟨S_, .i32⟩
  | .hbm, ⟨58, _⟩ => ⟨S32x512, .i32⟩
  | .hbm, ⟨59, _⟩ => ⟨S32x512, .i1⟩
  | .hbm, ⟨60, _⟩ => ⟨S_, .i32⟩
  | .hbm, ⟨61, _⟩ => ⟨S32x512, .i32⟩
  | .hbm, ⟨62, _⟩ => ⟨S32x512, .i32⟩
  | .hbm, ⟨63, _⟩ => ⟨S32x512, .i32⟩
  | .hbm, ⟨64, _⟩ => ⟨S32x512x1, .i32⟩
  | .hbm, ⟨65, _⟩ => ⟨S32x512, .f32⟩
  | .hbm, ⟨66, _⟩ => ⟨S32x512, .f32⟩
  | .hbm, ⟨67, _⟩ => ⟨S32x512x1, .i32⟩
  | .hbm, ⟨68, _⟩ => ⟨S50, .i32⟩
  | .hbm, ⟨69, _⟩ => ⟨S1x1x50, .i32⟩
  | .hbm, ⟨70, _⟩ => ⟨S32x512x50, .i32⟩
  | .hbm, ⟨71, _⟩ => ⟨S32x512x50, .i32⟩
  | .hbm, ⟨72, _⟩ => ⟨S32x512x50, .i1⟩
  | .hbm, ⟨73, _⟩ => ⟨S32x512x1, .f32⟩
  | .hbm, ⟨74, _⟩ => ⟨S_, .f32⟩
  | .hbm, ⟨75, _⟩ => ⟨S32x512x50, .f32⟩
  | .hbm, ⟨76, _⟩ => ⟨S32x512x50, .f32⟩
  | .hbm, ⟨77, _⟩ => ⟨S32x512x50, .f32⟩
  | .hbm, ⟨78, _⟩ => ⟨S_, .f32⟩
  | .hbm, ⟨79, _⟩ => ⟨S32x512, .f32⟩
  | .hbm, ⟨80, _⟩ => ⟨S_, .f32⟩
  | .hbm, ⟨81, _⟩ => ⟨S32x512, .f32⟩
  | .hbm, ⟨82, _⟩ => ⟨S32x512, .f32⟩
  | .hbm, ⟨83, _⟩ => ⟨S32x512x1, .f32⟩
  | .hbm, ⟨84, _⟩ => ⟨S32x512x50, .f32⟩
  | .hbm, ⟨85, _⟩ => ⟨S32x512x50, .f32⟩
  | .hbm, ⟨86, _⟩ => ⟨S32x512x50, .f32⟩
  | .hbm, ⟨87, _⟩ => ⟨S_, .f32⟩
  | .hbm, ⟨88, _⟩ => ⟨S32x512, .f32⟩
  | .hbm, ⟨89, _⟩ => ⟨S32x512x1, .f32⟩
  | .hbm, ⟨90, _⟩ => ⟨S32x512x50, .f32⟩
  | .hbm, ⟨91, _⟩ => ⟨S32x512x50, .f32⟩
  | .hbm, ⟨92, _⟩ => ⟨S_, .f32⟩
  | .hbm, ⟨93, _⟩ => ⟨S32x512x50, .f32⟩
  | .hbm, ⟨94, _⟩ => ⟨S32x512x50, .f32⟩
  | .hbm, ⟨95, _⟩ => ⟨S32x512x50, .f32⟩
  | .hbm, ⟨96, _⟩ => ⟨S32x512x50, .f32⟩
  | .hbm, ⟨97, _⟩ => ⟨S_, .f32⟩
  | .hbm, ⟨98, _⟩ => ⟨S32x512, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S32x512x50, .f32⟩
  | .hbm, ⟨105, _⟩ => ⟨S_, .f32⟩
  | .hbm, ⟨106, _⟩ => ⟨S32x512, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S32x512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_call1_v0 : Ref sig .tc := ⟨.hbm, 75, rfl⟩
abbrev main_call1_v1 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_cst_19 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_20 : Ref sig .tc := ⟨.hbm, 105, rfl⟩
abbrev main_v74 : Ref sig .tc := ⟨.hbm, 106, rfl⟩
abbrev main_cst_21 : Ref sig .tc := ⟨.hbm, 107, rfl⟩
abbrev main_v75 : Ref sig .tc := ⟨.hbm, 108, rfl⟩
abbrev main_cst_22 : Ref sig .tc := ⟨.hbm, 109, rfl⟩
abbrev main_v76 : Ref sig .tc := ⟨.hbm, 110, rfl⟩
abbrev main_v77 : Ref sig .tc := ⟨.hbm, 111, rfl⟩
abbrev main_cst_23 : Ref sig .tc := ⟨.hbm, 112, rfl⟩
abbrev main_v78 : Ref sig .tc := ⟨.hbm, 113, rfl⟩
abbrev main_cst_24 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]

class Facts₀ : Prop where
  bcast_S50_S1x1x50_2 : S50.BroadcastsInDim S1x1x50 (![2] : Fin 1 → Fin S1x1x50.rank)
  bcast_S1x1x50_S32x512x50_0_1_2 : S1x1x50.BroadcastsInDim S32x512x50 (![0, 1, 2] : Fin 3 → Fin S32x512x50.rank)
  reducesTo_S32x512x50_S32x512_d2 : S32x512x50.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x50_0_1_2 : S32x512x1.BroadcastsInDim S32x512x50 (![0, 1, 2] : Fin 3 → Fin S32x512x50.rank)
  shapeCasts_S32x512_S16384 : S32x512.ShapeCasts S16384
  bcast_S_S50 : S_.BroadcastsInDim S50 (![] : Fin 0 → Fin S50.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S32x512x50 : S_.BroadcastsInDim S32x512x50 (![] : Fin 0 → Fin S32x512x50.rank)
  reducesTo_S32x512_S_d0_1 : S32x512.ReducesTo [0, 1] S_
  dot_S32x512x1536_S1536x50_S32x512x50_2_0_01_1_n_n_wf : DotDims.WF S32x512x1536 S1536x50 S32x512x50 [2] [0] [0, 1] [1] [] []
  scatter_S50_S16384x1_S16384_n_0_0_1_wf : ScatterDims.WF S50 S16384x1 S16384 [] [0] [0] 1
  gather_S50_S32x512x1_S32x512_n_0_n_n_0_2_1_wf : GatherDims.WF S50 S32x512x1 S32x512 [] [0] [] [0] [] 2 ![1]

variable [Facts₀]

def dot_S32x512x1536_S1536x50_S32x512x50_2_0_01_1_n_n : DotDims S32x512x1536 S1536x50 S32x512x50 where
  lhsContracting := [2]
  rhsContracting := [0]
  lhsNonContracting := [0, 1]
  rhsNonContracting := [1]
  lhsBatch := []
  rhsBatch := []
  wf := dot_S32x512x1536_S1536x50_S32x512x50_2_0_01_1_n_n_wf
def scatter_S50_S16384x1_S16384_n_0_0_1 : ScatterDims S50 S16384x1 S16384 where
  updateWindowDims := []
  insertedWindowDims := [0]
  scatterDimsToOperandDims := [0]
  indexVectorDim := 1
  wf := scatter_S50_S16384x1_S16384_n_0_0_1_wf
def gather_S50_S32x512x1_S32x512_n_0_n_n_0_2_1 : GatherDims S50 S32x512x1 S32x512 where
  offsetDims := []
  collapsedSliceDims := [0]
  operandBatchingDims := []
  startIndicesBatchingDims := []
  startIndexMap := [0]
  indexVectorDim := 2
  sliceSizes := ![1]
  wf := gather_S50_S32x512x1_S32x512_n_0_n_n_0_2_1_wf

class Facts : Prop extends Facts₀ where

variable [Facts]
-- ==== Proof.Spec.lean ====
/-
  The mathematics of the two losses, over plain finitely indexed functions of extended reals.

  A ROW is one token: its 50 logits `lg` and its 50 target scores `ys`. With `sm v` the softmax of a row
  (each entry's exponential of its distance to the row's maximum, over the sum of those exponentials) and
  `lp lg t = log (sm lg t + ε)`, the row's two terms are

      row1 lg ys = ∑ t, sm ys t · lp lg t          (soft-target cross entropy)
      row2 lg    = ∑ t, sm lg t · lp lg t          (negative entropy of the prediction)

  One program adds the NEGATED sums of eight tiles of 2048 rows one after the other and then divides by the
  number of rows; the other sums all 32 × 512 rows, divides, and negates once. Over the extended reals negation
  does not distribute over a sum that holds both infinities, so the two agree because every row term is a REAL
  number: a softmax of reals is a positive real, ε is non-negative, and the logarithm of a positive real is real.
-/
import Idealize.ShloMosaic.PureOps.Ideal
import Idealize.ShloMosaic.PureOps.Ideal.Laws
import Idealize.ShloMosaic.Lib.ValueIdx
import Mathlib.Algebra.BigOperators.Fin
import Mathlib.Algebra.BigOperators.Ring.Finset
import Mathlib.Logic.Equiv.Fin.Basic

noncomputable section

namespace Cert.Loss

open Idealize.ShloMosaic

/-! ## The constants the two programs spell -/

/-- The smoothing term inside the logarithm. -/
def eps : EReal := Ideal.ofBits .f32 0x2B8CBCCC#32
/-- The fill value of the target scores. -/
def one : EReal := Ideal.ofBits .f32 0x3F800000#32
/-- The number of rows, 16384, as both programs divide by it. -/
def nrows : EReal := Ideal.ofBits .f32 0x46800000#32
/-- The weights of the two losses. -/
def w1 : EReal := Ideal.ofBits .f32 0x3F4CCCCD#32
def w2 : EReal := Ideal.ofBits .f32 0x3E4CCCCD#32
/-- The value a maximum starts from. -/
def ninf : EReal := Ideal.ofBits .f32 0xFF800000#32

theorem ninf_eq : ninf = ⊥ := by
  simp [ninf, Ideal.ofBits, Ideal.ieee]

theorem eps_real : ∃ e : ℝ, 0 ≤ e ∧ eps = (e : EReal) := by
  simp [eps, Ideal.ofBits, Ideal.ieee, -EReal.coe_mul]

theorem one_eq : one = 1 := by
  simp [one, Ideal.ofBits, Ideal.ieee, -EReal.coe_mul]; norm_num

theorem nrows_eq : nrows = ((16384 : ℝ) : EReal) := by
  simp [nrows, Ideal.ofBits, Ideal.ieee, -EReal.coe_mul]; norm_num

/-- `512.0`, the sequence length the counts are divided by. -/
theorem ofBits_512 : Ideal.ofBits .f32 0x44000000#32 = ((512 : ℝ) : EReal) := by
  simp [Ideal.ofBits, Ideal.ieee, -EReal.coe_mul]; norm_num

/-! ## A row -/

/-- A row's maximum, as both programs take it: the fold of `max` from `-∞`, joined once more with `-∞`. -/
def rmax (v : Fin 50 → EReal) : EReal := max ninf ((Finset.univ : Finset (Fin 50)).fold max ninf v)

/-- The softmax of a row. -/
def sm (v : Fin 50 → EReal) (t : Fin 50) : EReal :=
  Ideal.div (Ideal.exp (v t - rmax v)) (∑ u : Fin 50, Ideal.exp (v u - rmax v))

/-- The smoothed log-probability. -/
def lp (lg : Fin 50 → EReal) (t : Fin 50) : EReal := Ideal.log (sm lg t + eps)

def row1 (lg ys : Fin 50 → EReal) : EReal := ∑ t : Fin 50, sm ys t * lp lg t
def row2 (lg : Fin 50 → EReal) : EReal := ∑ t : Fin 50, sm lg t * lp lg t

/-- The logits of a row: the row of `x` against the columns of `W`, plus the bias. -/
def logits (x : Fin 1536 → EReal) (W : Fin 1536 → Fin 50 → EReal) (b : Fin 50 → EReal) (t : Fin 50) : EReal :=
  (∑ k : Fin 1536, x k * W k t) + b t

/-- The target scores of a row with tag word `tag`: the tag's own score at the tag's position, the fill value elsewhere
    (everywhere, when the word names no position). -/
def scores (tag : BitVec 32) (vt : Fin 50 → EReal) (t : Fin 50) : EReal :=
  if tag = BitVec.ofNat 32 t.val then vt t else one

/-- A finite sum of reals, read in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a row of reals is real: it lies below +∞ because every entry does, and above -∞ because
    some entry does. -/
theorem rmax_real (v : Fin 50 → ℝ) : ∃ m : ℝ, rmax (fun u => (v u : EReal)) = (m : EReal) := by
  have htop : rmax (fun u => (v u : EReal)) ≠ ⊤ := by
    rw [rmax, ninf_eq]
    apply ne_of_lt
    rw [max_lt_iff, Finset.fold_max_lt]
    exact ⟨bot_lt_top, bot_lt_top, fun x _ => EReal.coe_lt_top _⟩
  have hbot : rmax (fun u => (v u : EReal)) ≠ ⊥ := by
    rw [rmax, ninf_eq]
    apply ne_of_gt
    rw [lt_max_iff, Finset.lt_fold_max]
    exact Or.inr (Or.inr ⟨0, Finset.mem_univ _, EReal.bot_lt_coe _⟩)
  exact ⟨_, (EReal.coe_toReal htop hbot).symm⟩

/-- The softmax of a row of reals: every exponential is that of a real difference, their sum is a positive
    real, and the quotient by a nonzero real is the product with its reciprocal. -/
theorem sm_real (v : Fin 50 → ℝ) (t : Fin 50) : ∃ r : ℝ, 0 < r ∧ sm (fun u => (v u : EReal)) t = (r : EReal) := by
  obtain ⟨m, hm⟩ := rmax_real v
  have hexp : ∀ u, Ideal.exp ((v u : EReal) - rmax (fun u => (v u : EReal))) = ((Real.exp (v u - m) : ℝ) : EReal) := by
    intro u
    rw [hm, ← EReal.coe_sub, Ideal.exp_coe]
  have hpos : 0 < ∑ u : Fin 50, Real.exp (v u - m) :=
    Finset.sum_pos (fun u _ => Real.exp_pos _) ⟨0, Finset.mem_univ _⟩
  refine ⟨Real.exp (v t - m) * (1 / ∑ u : Fin 50, Real.exp (v u - m)),
    mul_pos (Real.exp_pos _) (one_div_pos.mpr hpos), ?_⟩
  simp only [sm, hexp]
  rw [coe_sum, Ideal.div_coe hpos.ne', ← EReal.coe_mul]

/-- The smoothed log-probability of a row of reals: the logarithm of a positive real. -/
theorem lp_real (lg : Fin 50 → ℝ) (t : Fin 50) : ∃ r : ℝ, lp (fun u => (lg u : EReal)) t = (r : EReal) := by
  obtain ⟨p, hp, hsm⟩ := sm_real lg t
  obtain ⟨e, he, heps⟩ := eps_real
  refine ⟨Real.log (p + e), ?_⟩
  rw [lp, hsm, heps, ← EReal.coe_add, Ideal.log_coe, if_neg (not_le.mpr (add_pos_of_pos_of_nonneg hp he))]

theorem row1_real (lg ys : Fin 50 → ℝ) : ∃ r : ℝ, row1 (fun u => (lg u : EReal)) (fun u => (ys u : EReal)) = (r : EReal) := by
  choose p hp using sm_real ys
  choose q hq using lp_real lg
  refine ⟨∑ t : Fin 50, p t * q t, ?_⟩
  rw [row1, ← coe_sum]
  refine Finset.sum_congr rfl fun t _ => ?_
  rw [(hp t).2, hq t, EReal.coe_mul]

theorem row2_real (lg : Fin 50 → ℝ) : ∃ r : ℝ, row2 (fun u => (lg u : EReal)) = (r : EReal) := by
  choose p hp using sm_real lg
  choose q hq using lp_real lg
  refine ⟨∑ t : Fin 50, p t * q t, ?_⟩
  rw [row2, ← coe_sum]
  refine Finset.sum_congr rfl fun t _ => ?_
  rw [(hp t).2, hq t, EReal.coe_mul]

theorem logits_real (x : Fin 1536 → ℝ) (W : Fin 1536 → Fin 50 → ℝ) (b : Fin 50 → ℝ) (t : Fin 50) :
    ∃ r : ℝ, logits (fun k => (x k : EReal)) (fun k u => (W k u : EReal)) (fun u => (b u : EReal)) t = (r : EReal) := by
  refine ⟨(∑ k : Fin 1536, x k * W k t) + b t, ?_⟩
  simp only [logits, ← EReal.coe_mul, coe_sum, ← EReal.coe_add]

/-! ## The two ways of adding the rows up -/

/-- Row `r` of tile `n`: rows are laid out tile after tile. -/
def tileRow (n : Fin 8) (r : Fin 2048) : Fin 16384 := ⟨2048 * n.val + r.val, by have := n.isLt; have := r.isLt; omega⟩

/-- Row `s` of batch entry `b`. -/
def batchRow (b : Fin 32) (s : Fin 512) : Fin 16384 := ⟨512 * b.val + s.val, by have := b.isLt; have := s.isLt; omega⟩

/-- One tile's sum. -/
def tileSum (f : Fin 16384 → EReal) (n : Fin 8) : EReal := ∑ r : Fin 2048, f (tileRow n r)

/-- The accumulator after tile `n`: reset to zero before the first tile, then each tile's negated sum (zero minus the sum) added. -/
def acc (f : Fin 16384 → EReal) : (n : ℕ) → n < 8 → EReal
  | 0, h => 0 + (0 - tileSum f ⟨0, h⟩)
  | n + 1, h => acc f n (Nat.lt_of_succ_lt h) + (0 - tileSum f ⟨n + 1, h⟩)

/-- Tile by tile: the two accumulators after the last tile, each divided by the number of rows, weighted and added. -/
def tiled (f1 f2 : Fin 16384 → EReal) : EReal :=
  w1 * Ideal.div (acc f1 7 (by decide)) nrows + w2 * Ideal.div (acc f2 7 (by decide)) nrows

/-- All at once: each loss the negated mean of the row terms (every sum started from zero), weighted and added. -/
def whole (g1 g2 : Fin 32 → Fin 512 → EReal) : EReal :=
  w1 * -(Ideal.div (0 + ∑ p : Fin 32 × Fin 512, (0 + g1 p.1 p.2)) nrows)
    + w2 * -(Ideal.div (0 + ∑ p : Fin 32 × Fin 512, (0 + g2 p.1 p.2)) nrows)

/-! ## The rows of the argument arrays -/

/-- The logits of row `(b, s)`: that row of `x` against `W`, plus the bias. -/
def lgAt (X : (⟨3, ![32, 512, 1536]⟩ : Shape).Idx → EReal) (W : (⟨2, ![1536, 50]⟩ : Shape).Idx → EReal)
    (B : (⟨1, ![50]⟩ : Shape).Idx → EReal) (b : Fin 32) (s : Fin 512) : Fin 50 → EReal :=
  logits (fun k => X (ValueIdx.ix3 b s k)) (fun k t => W (ValueIdx.ix2 k t)) (fun t => B (ValueIdx.ix1 t))

/-- The target scores of row `(b, s)`: by its tag word, out of the per-tag scores `VT`. -/
def ysAt (TAGS : (⟨2, ![32, 512]⟩ : Shape).Idx → BitVec 32) (VT : (⟨1, ![50]⟩ : Shape).Idx → EReal)
    (b : Fin 32) (s : Fin 512) : Fin 50 → EReal :=
  scores (TAGS (ValueIdx.ix2 b s)) (fun t => VT (ValueIdx.ix1 t))

/-- The two row terms of row `(b, s)`. -/
def g1 (X : (⟨3, ![32, 512, 1536]⟩ : Shape).Idx → EReal) (TAGS : (⟨2, ![32, 512]⟩ : Shape).Idx → BitVec 32)
    (VT : (⟨1, ![50]⟩ : Shape).Idx → EReal) (W : (⟨2, ![1536, 50]⟩ : Shape).Idx → EReal)
    (B : (⟨1, ![50]⟩ : Shape).Idx → EReal) (b : Fin 32) (s : Fin 512) : EReal :=
  row1 (lgAt X W B b s) (ysAt TAGS VT b s)

def g2 (X : (⟨3, ![32, 512, 1536]⟩ : Shape).Idx → EReal) (W : (⟨2, ![1536, 50]⟩ : Shape).Idx → EReal)
    (B : (⟨1, ![50]⟩ : Shape).Idx → EReal) (b : Fin 32) (s : Fin 512) : EReal :=
  row2 (lgAt X W B b s)

/-- A flat row number's batch entry and position: rows are laid out batch entry after batch entry. -/
def rowB (R : Fin 16384) : Fin 32 := ⟨R.val / 512, by have := R.isLt; omega⟩
def rowS (R : Fin 16384) : Fin 512 := ⟨R.val % 512, Nat.mod_lt _ (by decide)⟩

/-- The same two row terms by flat row number. -/
def f1 (X : (⟨3, ![32, 512, 1536]⟩ : Shape).Idx → EReal) (TAGS : (⟨2, ![32, 512]⟩ : Shape).Idx → BitVec 32)
    (VT : (⟨1, ![50]⟩ : Shape).Idx → EReal) (W : (⟨2, ![1536, 50]⟩ : Shape).Idx → EReal)
    (B : (⟨1, ![50]⟩ : Shape).Idx → EReal) (R : Fin 16384) : EReal :=
  g1 X TAGS VT W B (rowB R) (rowS R)

def f2 (X : (⟨3, ![32, 512, 1536]⟩ : Shape).Idx → EReal) (W : (⟨2, ![1536, 50]⟩ : Shape).Idx → EReal)
    (B : (⟨1, ![50]⟩ : Shape).Idx → EReal) (R : Fin 16384) : EReal :=
  g2 X W B (rowB R) (rowS R)

end Cert.Loss

end
-- ==== Proof.SpecSum.lean ====
/-
  Adding the rows up tile by tile and all at once give the same extended real when every row term is a real
  number. Over the reals the eight tiles of 2048 rows and the 32 batch entries of 512 rows both enumerate the 16384
  rows once, a sum of negated tile sums is the negated total, and dividing by the (non-zero, finite) number of rows
  commutes with negation.
-/
import proofs.«407716_j68401649156201_1_alg».proof.Proof.Spec

noncomputable section

namespace Cert.Loss

open Idealize.ShloMosaic

/-! ## Sums of real numbers inside the extended reals -/

/-- A finite sum of real numbers, taken in the extended reals, is the real sum. -/
private theorem coe_sum_real {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The two enumerations of the 16384 rows -/

/-- Tile number and row within the tile against the flat row number: quotient and remainder by 2048. -/
private def tileEquiv : Fin 8 × Fin 2048 ≃ Fin 16384 where
  toFun p := tileRow p.1 p.2
  invFun R := (⟨R.val / 2048, by have := R.isLt; omega⟩, ⟨R.val % 2048, Nat.mod_lt _ (by decide)⟩)
  left_inv p := by
    obtain ⟨⟨a, ha⟩, ⟨b, hb⟩⟩ := p
    apply Prod.ext
    · apply Fin.ext
      show (2048 * a + b) / 2048 = a
      omega
    · apply Fin.ext
      show (2048 * a + b) % 2048 = b
      omega
  right_inv R := by
    apply Fin.ext
    show 2048 * (R.val / 2048) + R.val % 2048 = R.val
    omega

/-- Batch entry and position against the flat row number: quotient and remainder by 512. -/
private def batchEquiv : Fin 32 × Fin 512 ≃ Fin 16384 where
  toFun p := batchRow p.1 p.2
  invFun R := (rowB R, rowS R)
  left_inv p := by
    obtain ⟨⟨a, ha⟩, ⟨b, hb⟩⟩ := p
    apply Prod.ext
    · apply Fin.ext
      show (512 * a + b) / 512 = a
      omega
    · apply Fin.ext
      show (512 * a + b) % 512 = b
      omega
  right_inv R := by
    apply Fin.ext
    show 512 * (R.val / 512) + R.val % 512 = R.val
    omega

private theorem rowB_batchRow (b : Fin 32) (s : Fin 512) : rowB (batchRow b s) = b :=
  congrArg Prod.fst (batchEquiv.left_inv (b, s))

private theorem rowS_batchRow (b : Fin 32) (s : Fin 512) : rowS (batchRow b s) = s :=
  congrArg Prod.snd (batchEquiv.left_inv (b, s))

/-- The batch rows enumerate every row once. -/
private theorem batch_total (φ : Fin 16384 → ℝ) :
    ∑ p : Fin 32 × Fin 512, φ (batchRow p.1 p.2) = ∑ R : Fin 16384, φ R :=
  Fintype.sum_equiv batchEquiv _ _ (fun _ => rfl)

/-! ## The accumulator over real row terms -/

/-- The real sum of tile `j` (zero past the last tile). -/
private def tau (φ : Fin 16384 → ℝ) (j : ℕ) : ℝ :=
  if h : j < 8 then ∑ r : Fin 2048, φ (tileRow ⟨j, h⟩ r) else 0

private theorem tileSum_coe (φ : Fin 16384 → ℝ) (j : ℕ) (h : j < 8) :
    tileSum (fun R => (φ R : EReal)) ⟨j, h⟩ = ((tau φ j : ℝ) : EReal) := by
  unfold tileSum tau
  rw [dif_pos h, coe_sum_real]

/-- After tile `n` the accumulator holds the negated real sum of the tiles so far: zero plus a negated real is
    that negated real, and a real plus a negated real is the real difference. -/
private theorem acc_coe (φ : Fin 16384 → ℝ) : ∀ (n : ℕ) (h : n < 8),
    acc (fun R => (φ R : EReal)) n h = ((-(∑ j ∈ Finset.range (n + 1), tau φ j) : ℝ) : EReal)
  | 0, h => by
    rw [acc, tileSum_coe, zero_add, zero_sub, Finset.sum_range_one, EReal.coe_neg]
  | n + 1, h => by
    rw [acc, acc_coe φ n (Nat.lt_of_succ_lt h), tileSum_coe, zero_sub, ← EReal.coe_neg, ← EReal.coe_add,
      Finset.sum_range_succ _ (n + 1)]
    congr 1
    ring

/-- The eight tiles enumerate every row once. -/
private theorem tau_total (φ : Fin 16384 → ℝ) :
    ∑ j ∈ Finset.range 8, tau φ j = ∑ R : Fin 16384, φ R := by
  rw [← Fin.sum_univ_eq_sum_range (tau φ) 8,
    ← Fintype.sum_equiv tileEquiv (fun p => φ (tileRow p.1 p.2)) φ (fun _ => rfl), Fintype.sum_prod_type]
  refine Finset.sum_congr rfl (fun j _ => ?_)
  unfold tau
  rw [dif_pos j.isLt]

/-- One loss: the last accumulator over the number of rows is the negated mean of the row terms. -/
private theorem side (φ : Fin 16384 → ℝ) (g : Fin 32 → Fin 512 → EReal)
    (e : ∀ b s, g b s = ((φ (batchRow b s) : ℝ) : EReal)) :
    Ideal.div (acc (fun R => (φ R : EReal)) 7 (by decide)) nrows
      = -(Ideal.div (0 + ∑ p : Fin 32 × Fin 512, (0 + g p.1 p.2)) nrows) := by
  have hacc : acc (fun R => (φ R : EReal)) 7 (by decide) = ((-(∑ R : Fin 16384, φ R) : ℝ) : EReal) := by
    have h7 := acc_coe φ 7 (by decide)
    rw [tau_total] at h7
    exact h7
  have hsum : (∑ p : Fin 32 × Fin 512, (0 + g p.1 p.2)) = ((∑ R : Fin 16384, φ R : ℝ) : EReal) := by
    rw [← batch_total, ← coe_sum_real]
    refine Finset.sum_congr rfl (fun p _ => ?_)
    rw [zero_add, e]
  rw [hacc, hsum, zero_add, nrows_eq, Ideal.div_coe (by norm_num : (16384 : ℝ) ≠ 0),
    Ideal.div_coe (by norm_num : (16384 : ℝ) ≠ 0), ← EReal.coe_mul, ← EReal.coe_mul, ← EReal.coe_neg, neg_mul]

/-- When every row term is a real number the two ways agree. -/
theorem tiled_eq_whole (f1 f2 : Fin 16384 → EReal) (g1 g2 : Fin 32 → Fin 512 → EReal)
    (h1 : ∀ R, ∃ r : ℝ, f1 R = (r : EReal)) (h2 : ∀ R, ∃ r : ℝ, f2 R = (r : EReal))
    (e1 : ∀ b s, g1 b s = f1 (batchRow b s)) (e2 : ∀ b s, g2 b s = f2 (batchRow b s)) :
    tiled f1 f2 = whole g1 g2 := by
  choose φ1 hφ1 using h1
  choose φ2 hφ2 using h2
  obtain rfl : f1 = fun R => (φ1 R : EReal) := funext hφ1
  obtain rfl : f2 = fun R => (φ2 R : EReal) := funext hφ2
  unfold tiled whole
  rw [side φ1 g1 e1, side φ2 g2 e2]

/-- With every float entry a real number, adding the rows up tile by tile and all at once agree. -/
theorem tiled_eq_whole_arrays (X : (⟨3, ![32, 512, 1536]⟩ : Shape).Idx → EReal) (TAGS : (⟨2, ![32, 512]⟩ : Shape).Idx → BitVec 32)
    (VT : (⟨1, ![50]⟩ : Shape).Idx → EReal) (W : (⟨2, ![1536, 50]⟩ : Shape).Idx → EReal)
    (B : (⟨1, ![50]⟩ : Shape).Idx → EReal)
    (hX : ∀ i, ∃ r : ℝ, X i = (r : EReal)) (hVT : ∀ i, ∃ r : ℝ, VT i = (r : EReal))
    (hW : ∀ i, ∃ r : ℝ, W i = (r : EReal)) (hB : ∀ i, ∃ r : ℝ, B i = (r : EReal)) :
    tiled (f1 X TAGS VT W B) (f2 X W B) = whole (g1 X TAGS VT W B) (g2 X W B) := by
  choose x hx using hX
  choose vt hvt using hVT
  choose w hw using hW
  choose bb hbb using hB
  obtain rfl : X = fun i => (x i : EReal) := funext hx
  obtain rfl : VT = fun i => (vt i : EReal) := funext hvt
  obtain rfl : W = fun i => (w i : EReal) := funext hw
  obtain rfl : B = fun i => (bb i : EReal) := funext hbb
  -- the logits of a row of real entries are real
  have hlg : ∀ b s, ∃ l : Fin 50 → ℝ,
      lgAt (fun i => (x i : EReal)) (fun i => (w i : EReal)) (fun i => (bb i : EReal)) b s
        = fun u => (l u : EReal) := by
    intro b s
    choose l hl using logits_real (fun k => x (ValueIdx.ix3 b s k)) (fun k t => w (ValueIdx.ix2 k t))
      (fun t => bb (ValueIdx.ix1 t))
    exact ⟨l, funext hl⟩
  -- the target scores of a row are real: the tag's own real score or the fill value one
  have hys : ∀ b s, ∃ y : Fin 50 → ℝ, ysAt TAGS (fun i => (vt i : EReal)) b s = fun u => (y u : EReal) := by
    intro b s
    refine ⟨fun t => if TAGS (ValueIdx.ix2 b s) = BitVec.ofNat 32 t.val then vt (ValueIdx.ix1 t) else 1,
      funext (fun t => ?_)⟩
    unfold ysAt scores
    dsimp only
    split_ifs
    · rfl
    · rw [one_eq, EReal.coe_one]
  refine tiled_eq_whole _ _ _ _ ?_ ?_ ?_ ?_
  · intro R
    obtain ⟨l, hl⟩ := hlg (rowB R) (rowS R)
    obtain ⟨y, hy⟩ := hys (rowB R) (rowS R)
    obtain ⟨r, hr⟩ := row1_real l y
    refine ⟨r, ?_⟩
    unfold f1 g1
    rw [hl, hy]
    exact hr
  · intro R
    obtain ⟨l, hl⟩ := hlg (rowB R) (rowS R)
    obtain ⟨r, hr⟩ := row2_real l
    refine ⟨r, ?_⟩
    unfold f2 g2
    rw [hl]
    exact hr
  · intro b s
    unfold f1
    rw [rowB_batchRow, rowS_batchRow]
  · intro b s
    unfold f2
    rw [rowB_batchRow, rowS_batchRow]

end Cert.Loss

end
-- ==== Proof.KPieces.lean ====
/-
  What one run of the kernel body leaves behind, as values. The body keeps two one-element accumulators. At the
  first grid point it clears them and then adds the tile's two negated sums; at every later point it adds the
  tile's negated sums to what the point before left; at the last point it also copies the two accumulators to the
  two outputs. `step1` and `step2` are those updates as pure functions of the accumulator's old contents and the
  tile's five input blocks.
-/
import proofs.«407716_j68401649156201_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The first accumulator's update: the old contents plus zero minus the tile's sum of target-times-log-probability. -/
def step1 (a : Vec F S1x1 .f32) (x0 : Vec F S2048x1536 .f32) (x1 : Vec F S1536x50 .f32) (x2 : Vec F S1x50 .f32) (x3 : Vec F S2048x1 .i32) (x4 : Vec F S1x50 .f32) : Vec F S1x1 .f32 :=
  k0_pay1 (k0_pay6 x0 x1 x2) (k0_pay7 x3 x4) (k0_pay8 x3 x4) a

/-- The second accumulator's update: the old contents plus zero minus the tile's sum of probability-times-log-probability. -/
def step2 (a : Vec F S1x1 .f32) (x0 : Vec F S2048x1536 .f32) (x1 : Vec F S1536x50 .f32) (x2 : Vec F S1x50 .f32) (x3 : Vec F S2048x1 .i32) (x4 : Vec F S1x50 .f32) : Vec F S1x1 .f32 :=
  k0_pay2 (k0_pay5 x0 x1 x2) (k0_pay6 x0 x1 x2) a

/-- The cleared accumulators. -/
def clear1 : Vec F S1x1 .f32 := k0_pay3
def clear2 : Vec F S1x1 .f32 := k0_pay4

/-- The zero offset pair is the constant zero function. -/
private theorem hz : (![0, 0] : Fin 2 → Nat) = fun _ => 0 := funext fun a => by fin_cases a <;> rfl

/-- The first point: cleared, then updated. -/
theorem sA0 (c : Dev nD) (i : grid0.Coords) (a1 : Memref sig .tc .vmem S2048x1536 .f32) (h1 : a1.IsWhole)
    (a2 : Memref sig .tc .vmem S1536x50 .f32) (h2 : a2.IsWhole) (a3 : Memref sig .tc .vmem S1x50 .f32) (h3 : a3.IsWhole)
    (a4 : Memref sig .tc .vmem S2048x1 .i32) (h4 : a4.IsWhole) (a5 : Memref sig .tc .vmem S1x50 .f32) (h5 : a5.IsWhole)
    (a6 : Memref sig .tc .vmem S1x1 .f32) (h6 : a6.IsWhole) (a7 : Memref sig .tc .vmem S1x1 .f32) (h7 : a7.IsWhole)
    (a8 : Memref sig .tc .vmem S1x1 .f32) (h8 : a8.IsWhole) (a9 : Memref sig .tc .vmem S1x1 .f32) (h9 : a9.IsWhole) (hc0 : cond0_0 i) (hc1 : ¬cond0_1 i)
    (x0 : Vec F S2048x1536 .f32) (x1 : Vec F S1536x50 .f32) (x2 : Vec F S1x50 .f32) (x3 : Vec F S2048x1 .i32) (x4 : Vec F S1x50 .f32) :
    sout0_A_0 c i a1 h1 a2 h2 a3 h3 a4 h4 a5 h5 a6 h6 a7 h7 a8 h8 a9 h9 hc0 hc1 x0 x1 x2 x3 x4 = step1 clear1 x0 x1 x2 x3 x4 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S2048x1536) hz, View.ld_unit_zero (S := S1536x50) hz, View.ld_unit_zero (S := S1x50) hz,
    View.ld_unit_zero (S := S2048x1) hz, View.ld_unit_zero (S := S1x1) hz, shapeCast_self]
  rfl

theorem sA1 (c : Dev nD) (i : grid0.Coords) (a1 : Memref sig .tc .vmem S2048x1536 .f32) (h1 : a1.IsWhole)
    (a2 : Memref sig .tc .vmem S1536x50 .f32) (h2 : a2.IsWhole) (a3 : Memref sig .tc .vmem S1x50 .f32) (h3 : a3.IsWhole)
    (a4 : Memref sig .tc .vmem S2048x1 .i32) (h4 : a4.IsWhole) (a5 : Memref sig .tc .vmem S1x50 .f32) (h5 : a5.IsWhole)
    (a6 : Memref sig .tc .vmem S1x1 .f32) (h6 : a6.IsWhole) (a7 : Memref sig .tc .vmem S1x1 .f32) (h7 : a7.IsWhole)
    (a8 : Memref sig .tc .vmem S1x1 .f32) (h8 : a8.IsWhole) (a9 : Memref sig .tc .vmem S1x1 .f32) (h9 : a9.IsWhole) (hc0 : cond0_0 i) (hc1 : ¬cond0_1 i)
    (x0 : Vec F S2048x1536 .f32) (x1 : Vec F S1536x50 .f32) (x2 : Vec F S1x50 .f32) (x3 : Vec F S2048x1 .i32) (x4 : Vec F S1x50 .f32) :
    sout0_A_1 c i a1 h1 a2 h2 a3 h3 a4 h4 a5 h5 a6 h6 a7 h7 a8 h8 a9 h9 hc0 hc1 x0 x1 x2 x3 x4 = step2 clear2 x0 x1 x2 x3 x4 := by
  unfold sout0_A_1
  rw [View.read_writes_eq_canon _ _ _ (scover0_A_1 c i a1 h1 a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S2048x1536) hz, View.ld_unit_zero (S := S1536x50) hz, View.ld_unit_zero (S := S1x50) hz,
    View.ld_unit_zero (S := S2048x1) hz, View.ld_unit_zero (S := S1x1) hz, shapeCast_self]
  rfl

/-- A middle point: what the point before left, updated. -/
theorem sB0 (c : Dev nD) (i : grid0.Coords) (a1 : Memref sig .tc .vmem S2048x1536 .f32) (h1 : a1.IsWhole)
    (a2 : Memref sig .tc .vmem S1536x50 .f32) (h2 : a2.IsWhole) (a3 : Memref sig .tc .vmem S1x50 .f32) (h3 : a3.IsWhole)
    (a4 : Memref sig .tc .vmem S2048x1 .i32) (h4 : a4.IsWhole) (a5 : Memref sig .tc .vmem S1x50 .f32) (h5 : a5.IsWhole)
    (a6 : Memref sig .tc .vmem S1x1 .f32) (h6 : a6.IsWhole) (a7 : Memref sig .tc .vmem S1x1 .f32) (h7 : a7.IsWhole)
    (a8 : Memref sig .tc .vmem S1x1 .f32) (h8 : a8.IsWhole) (a9 : Memref sig .tc .vmem S1x1 .f32) (h9 : a9.IsWhole) (hc0 : ¬cond0_0 i) (hc1 : ¬cond0_1 i)
    (x0 : Vec F S2048x1536 .f32) (x1 : Vec F S1536x50 .f32) (x2 : Vec F S1x50 .f32) (x3 : Vec F S2048x1 .i32) (x4 : Vec F S1x50 .f32) (xs0 xs1 : Vec F S1x1 .f32) :
    sout0_B_0 c i a1 h1 a2 h2 a3 h3 a4 h4 a5 h5 a6 h6 a7 h7 a8 h8 a9 h9 hc0 hc1 x0 x1 x2 x3 x4 xs0 xs1 = step1 xs0 x0 x1 x2 x3 x4 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S2048x1536) hz, View.ld_unit_zero (S := S1536x50) hz, View.ld_unit_zero (S := S1x50) hz,
    View.ld_unit_zero (S := S2048x1) hz, View.ld_unit_zero (S := S1x1) hz, shapeCast_self]
  rfl

theorem sB1 (c : Dev nD) (i : grid0.Coords) (a1 : Memref sig .tc .vmem S2048x1536 .f32) (h1 : a1.IsWhole)
    (a2 : Memref sig .tc .vmem S1536x50 .f32) (h2 : a2.IsWhole) (a3 : Memref sig .tc .vmem S1x50 .f32) (h3 : a3.IsWhole)
    (a4 : Memref sig .tc .vmem S2048x1 .i32) (h4 : a4.IsWhole) (a5 : Memref sig .tc .vmem S1x50 .f32) (h5 : a5.IsWhole)
    (a6 : Memref sig .tc .vmem S1x1 .f32) (h6 : a6.IsWhole) (a7 : Memref sig .tc .vmem S1x1 .f32) (h7 : a7.IsWhole)
    (a8 : Memref sig .tc .vmem S1x1 .f32) (h8 : a8.IsWhole) (a9 : Memref sig .tc .vmem S1x1 .f32) (h9 : a9.IsWhole) (hc0 : ¬cond0_0 i) (hc1 : ¬cond0_1 i)
    (x0 : Vec F S2048x1536 .f32) (x1 : Vec F S1536x50 .f32) (x2 : Vec F S1x50 .f32) (x3 : Vec F S2048x1 .i32) (x4 : Vec F S1x50 .f32) (xs0 xs1 : Vec F S1x1 .f32) :
    sout0_B_1 c i a1 h1 a2 h2 a3 h3 a4 h4 a5 h5 a6 h6 a7 h7 a8 h8 a9 h9 hc0 hc1 x0 x1 x2 x3 x4 xs0 xs1 = step2 xs1 x0 x1 x2 x3 x4 := by
  unfold sout0_B_1
  rw [View.read_writes_eq_canon _ _ _ (scover0_B_1 c i a1 h1 a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h1.read_unread, h2.read_unread, h3.read_unread, h4.read_unread, h5.read_unread, h9.read_unread,
    View.ld_unit_zero (S := S2048x1536) hz, View.ld_unit_zero (S := S1536x50) hz, View.ld_unit_zero (S := S1x50) hz,
    View.ld_unit_zero (S := S2048x1) hz, View.ld_unit_zero (S := S1x1) hz, shapeCast_self]
  rfl

/-- The last point: updated likewise, and the outputs receive the updated accumulators. -/
theorem sC0 (c : Dev nD) (i : grid0.Coords) (a1 : Memref sig .tc .vmem S2048x1536 .f32) (h1 : a1.IsWhole)
    (a2 : Memref sig .tc .vmem S1536x50 .f32) (h2 : a2.IsWhole) (a3 : Memref sig .tc .vmem S1x50 .f32) (h3 : a3.IsWhole)
    (a4 : Memref sig .tc .vmem S2048x1 .i32) (h4 : a4.IsWhole) (a5 : Memref sig .tc .vmem S1x50 .f32) (h5 : a5.IsWhole)
    (a6 : Memref sig .tc .vmem S1x1 .f32) (h6 : a6.IsWhole) (a7 : Memref sig .tc .vmem S1x1 .f32) (h7 : a7.IsWhole)
    (a8 : Memref sig .tc .vmem S1x1 .f32) (h8 : a8.IsWhole) (a9 : Memref sig .tc .vmem S1x1 .f32) (h9 : a9.IsWhole) (hc0 : ¬cond0_0 i) (hc1 : cond0_1 i)
    (x0 : Vec F S2048x1536 .f32) (x1 : Vec F S1536x50 .f32) (x2 : Vec F S1x50 .f32) (x3 : Vec F S2048x1 .i32) (x4 : Vec F S1x50 .f32) (xs0 xs1 : Vec F S1x1 .f32) :
    sout0_C_0 c i a1 h1 a2 h2 a3 h3 a4 h4 a5 h5 a6 h6 a7 h7 a8 h8 a9 h9 hc0 hc1 x0 x1 x2 x3 x4 xs0 xs1 = step1 xs0 x0 x1 x2 x3 x4 := by
  unfold sout0_C_0
  rw [View.read_writes_eq_canon _ _ _ (scover0_C_0 c i a1 h1 a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h1.read_unread, h2.read_unread, h3.read_unread, h4.read_unread, h5.read_unread, h8.read_unread,
    View.ld_unit_zero (S := S2048x1536) hz, View.ld_unit_zero (S := S1536x50) hz, View.ld_unit_zero (S := S1x50) hz,
    View.ld_unit_zero (S := S2048x1) hz, View.ld_unit_zero (S := S1x1) hz, shapeCast_self]
  rfl

theorem sC1 (c : Dev nD) (i : grid0.Coords) (a1 : Memref sig .tc .vmem S2048x1536 .f32) (h1 : a1.IsWhole)
    (a2 : Memref sig .tc .vmem S1536x50 .f32) (h2 : a2.IsWhole) (a3 : Memref sig .tc .vmem S1x50 .f32) (h3 : a3.IsWhole)
    (a4 : Memref sig .tc .vmem S2048x1 .i32) (h4 : a4.IsWhole) (a5 : Memref sig .tc .vmem S1x50 .f32) (h5 : a5.IsWhole)
    (a6 : Memref sig .tc .vmem S1x1 .f32) (h6 : a6.IsWhole) (a7 : Memref sig .tc .vmem S1x1 .f32) (h7 : a7.IsWhole)
    (a8 : Memref sig .tc .vmem S1x1 .f32) (h8 : a8.IsWhole) (a9 : Memref sig .tc .vmem S1x1 .f32) (h9 : a9.IsWhole) (hc0 : ¬cond0_0 i) (hc1 : cond0_1 i)
    (x0 : Vec F S2048x1536 .f32) (x1 : Vec F S1536x50 .f32) (x2 : Vec F S1x50 .f32) (x3 : Vec F S2048x1 .i32) (x4 : Vec F S1x50 .f32) (xs0 xs1 : Vec F S1x1 .f32) :
    sout0_C_1 c i a1 h1 a2 h2 a3 h3 a4 h4 a5 h5 a6 h6 a7 h7 a8 h8 a9 h9 hc0 hc1 x0 x1 x2 x3 x4 xs0 xs1 = step2 xs1 x0 x1 x2 x3 x4 := by
  unfold sout0_C_1
  rw [View.read_writes_eq_canon _ _ _ (scover0_C_1 c i a1 h1 a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h1.read_unread, h2.read_unread, h3.read_unread, h4.read_unread, h5.read_unread, h9.read_unread,
    View.ld_unit_zero (S := S2048x1536) hz, View.ld_unit_zero (S := S1536x50) hz, View.ld_unit_zero (S := S1x50) hz,
    View.ld_unit_zero (S := S2048x1) hz, View.ld_unit_zero (S := S1x1) hz, shapeCast_self]
  rfl

theorem oC5 (c : Dev nD) (i : grid0.Coords) (a1 : Memref sig .tc .vmem S2048x1536 .f32) (h1 : a1.IsWhole)
    (a2 : Memref sig .tc .vmem S1536x50 .f32) (h2 : a2.IsWhole) (a3 : Memref sig .tc .vmem S1x50 .f32) (h3 : a3.IsWhole)
    (a4 : Memref sig .tc .vmem S2048x1 .i32) (h4 : a4.IsWhole) (a5 : Memref sig .tc .vmem S1x50 .f32) (h5 : a5.IsWhole)
    (a6 : Memref sig .tc .vmem S1x1 .f32) (h6 : a6.IsWhole) (a7 : Memref sig .tc .vmem S1x1 .f32) (h7 : a7.IsWhole)
    (a8 : Memref sig .tc .vmem S1x1 .f32) (h8 : a8.IsWhole) (a9 : Memref sig .tc .vmem S1x1 .f32) (h9 : a9.IsWhole) (hc0 : ¬cond0_0 i) (hc1 : cond0_1 i)
    (x0 : Vec F S2048x1536 .f32) (x1 : Vec F S1536x50 .f32) (x2 : Vec F S1x50 .f32) (x3 : Vec F S2048x1 .i32) (x4 : Vec F S1x50 .f32) (xs0 xs1 : Vec F S1x1 .f32) :
    out0_C_5 c i a1 h1 a2 h2 a3 h3 a4 h4 a5 h5 a6 h6 a7 h7 a8 h8 a9 h9 hc0 hc1 x0 x1 x2 x3 x4 xs0 xs1 = step1 xs0 x0 x1 x2 x3 x4 := by
  unfold out0_C_5
  rw [View.read_writes_eq_canon _ _ _ (cover0_C_5 c i a1 h1 a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h1.read_unread, h2.read_unread, h3.read_unread, h4.read_unread, h5.read_unread, h8.read_unread,
    View.ld_unit_zero (S := S2048x1536) hz, View.ld_unit_zero (S := S1536x50) hz, View.ld_unit_zero (S := S1x50) hz,
    View.ld_unit_zero (S := S2048x1) hz, View.ld_unit_zero (S := S1x1) hz, View.readCov_unit_zero (S := S1x1) _ hz, shapeCast_self]
  rfl

theorem oC6 (c : Dev nD) (i : grid0.Coords) (a1 : Memref sig .tc .vmem S2048x1536 .f32) (h1 : a1.IsWhole)
    (a2 : Memref sig .tc .vmem S1536x50 .f32) (h2 : a2.IsWhole) (a3 : Memref sig .tc .vmem S1x50 .f32) (h3 : a3.IsWhole)
    (a4 : Memref sig .tc .vmem S2048x1 .i32) (h4 : a4.IsWhole) (a5 : Memref sig .tc .vmem S1x50 .f32) (h5 : a5.IsWhole)
    (a6 : Memref sig .tc .vmem S1x1 .f32) (h6 : a6.IsWhole) (a7 : Memref sig .tc .vmem S1x1 .f32) (h7 : a7.IsWhole)
    (a8 : Memref sig .tc .vmem S1x1 .f32) (h8 : a8.IsWhole) (a9 : Memref sig .tc .vmem S1x1 .f32) (h9 : a9.IsWhole) (hc0 : ¬cond0_0 i) (hc1 : cond0_1 i)
    (x0 : Vec F S2048x1536 .f32) (x1 : Vec F S1536x50 .f32) (x2 : Vec F S1x50 .f32) (x3 : Vec F S2048x1 .i32) (x4 : Vec F S1x50 .f32) (xs0 xs1 : Vec F S1x1 .f32) :
    out0_C_6 c i a1 h1 a2 h2 a3 h3 a4 h4 a5 h5 a6 h6 a7 h7 a8 h8 a9 h9 hc0 hc1 x0 x1 x2 x3 x4 xs0 xs1 = step2 xs1 x0 x1 x2 x3 x4 := by
  unfold out0_C_6
  rw [View.read_writes_eq_canon _ _ _ (cover0_C_6 c i a1 h1 a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h1.read_unread, h2.read_unread, h3.read_unread, h4.read_unread, h5.read_unread, h9.read_unread,
    View.ld_unit_zero (S := S2048x1536) hz, View.ld_unit_zero (S := S1536x50) hz, View.ld_unit_zero (S := S1x50) hz,
    View.ld_unit_zero (S := S2048x1) hz, View.ld_unit_zero (S := S1x1) hz, View.readCov_unit_zero (S := S1x1) _ hz, shapeCast_self]
  rfl

end Cert.KernelIdeal.Pieces

end
-- ==== Proof.KBlocks.lean ====
/-
  The five input blocks a grid point's body reads, as entries of the program's argument arrays.

  The grid has eight points; point `t` is tile `t`: rows `2048 t` to `2048 t + 2047` of the 16384 flattened rows.
  `x` is flattened from (32, 512, 1536) to (16384, 1536) before the launch and the tags from (32, 512) to (16384, 1),
  both row-major, so flat row `R` is batch entry `R / 512`, position `R % 512`. `W` and the bias are read whole at
  every point, and so are the per-tag scores, which the program computes before the launch: each tag's score raised
  to one minus that tag's share of a sequence's length (its count over all rows divided by 512).
-/
import proofs.«407716_j68401649156201_1_alg».proof.Proof.Gen.KernelIdeal.Frame
import proofs.«407716_j68401649156201_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The input blocks at a grid point, typed by their literal shapes. -/
abbrev blk0 (c : Dev nD) (t : Fin cfg0.N) : Vec F S2048x1536 .f32 := iblk m c 0 t
abbrev blk1 (c : Dev nD) (t : Fin cfg0.N) : Vec F S1536x50 .f32 := iblk m c 1 t
abbrev blk2 (c : Dev nD) (t : Fin cfg0.N) : Vec F S1x50 .f32 := iblk m c 2 t
abbrev blk3 (c : Dev nD) (t : Fin cfg0.N) : Vec F S2048x1 .i32 := iblk m c 3 t
abbrev blk4 (c : Dev nD) (t : Fin cfg0.N) : Vec F S1x50 .f32 := iblk m c 4 t

/-- A grid point's tile number. -/
def tile (t : Fin cfg0.N) : Fin 8 := ⟨t.val, lt_of_lt_of_eq t.isLt N_0⟩

/-- One minus each tag's count over the sequence length, as the program computes it from the tags before the launch:
    the tags flattened, clipped below at zero, a negative one wrapped by 50, scattered as ones into fifty zeros (a count),
    converted, divided by 512, subtracted from one. -/
def expoK (tags : IVec S32x512 32) : FVec F S50 .f32 :=
  let v0 : IVec S16384 32 := shapeCast S16384 tags shapeCasts_S32x512_S16384
  let v1 : IVec S50 32 := broadcastInDim S50 ![] bcast_S_S50 (constantI S_ 32 0#32)
  let v2 : IVec S16384 32 := maxsi (broadcastInDim S16384 ![] bcast_S_S16384 (id (constantI S_ 32 0#32))) v0
  let v3 : IVec S16384 32 := broadcastInDim S16384 ![] bcast_S_S16384 (constantI S_ 32 0#32)
  let v4 : IVec S16384 1 := cmpi .slt v2 v3
  let v5 : IVec S16384 32 := broadcastInDim S16384 ![] bcast_S_S16384 (constantI S_ 32 50#32)
  let v6 : IVec S16384 32 := addi v2 v5
  let v7 : IVec S16384 32 := select v4 v6 v2
  let v8 : IVec S16384x1 32 := broadcastInDim S16384x1 ![0] bcast_S16384_S16384x1_0 v7
  let v9 : IVec S16384 32 := broadcastInDim S16384 ![] bcast_S_S16384 (constantI S_ 32 1#32)
  let v10 : IVec S50 32 := Host.scatter scatter_S50_S16384x1_S16384_n_0_0_1 IntOp.addi v1 v8 v9
  let v11 : FVec F S50 .f32 := sitofp .f32 v10
  let v12 : FVec F S50 .f32 := broadcastInDim S50 ![] bcast_S_S50 (constant S_ .f32 0x44000000#32)
  let v13 : FVec F S50 .f32 := Host.divf v11 v12
  let v14 : FVec F S50 .f32 := broadcastInDim S50 ![] bcast_S_S50 (constant S_ .f32 0x3F800000#32)
  subf v14 v13

/-- The per-tag scores: each tag's score to that power. -/
def valtagK (tags : IVec S32x512 32) (ts : FVec F S50 .f32) : FVec F S50 .f32 := Host.powf ts (expoK tags)

/-! ## The arrays the launch finds

Four of the five arrays the grid reads are written before the launch, each a row-major re-reading of an argument (or,
for the per-tag scores, of the value computed from two arguments); `W` is the argument itself. -/

/-- The flattened `x`: the program's `x` read row-major at the shape (16384, 1536). -/
private theorem V_x (c : Dev nD) :
    (V m c main_v17 : S16384x1536.Idx → Elt F .f32)
      = shapeCast S16384x1536 (m ((c.tc : Thread nD τ).loc main_arg0)) shapeCasts_S32x512x1536_S16384x1536 := by
  dsimp only [V, V0]
  simp only [hostOps0, hostOps0_1, hostOps0_2, List.flatten_cons, List.flatten_nil, List.append_nil, List.cons_append,
    List.nil_append]
  after_results_simp
  rfl

/-- The tags as one column: flattened to 16384 entries, then given a unit axis. -/
private theorem V_tags (c : Dev nD) :
    (V m c main_v18 : S16384x1.Idx → Elt F .i32)
      = shapeCast S16384x1 (shapeCast S16384 (m ((c.tc : Thread nD τ).loc main_arg1)) shapeCasts_S32x512_S16384) shapeCasts_S16384_S16384x1 := by
  dsimp only [V, V0]
  simp only [hostOps0, hostOps0_1, hostOps0_2, List.flatten_cons, List.flatten_nil, List.append_nil, List.cons_append,
    List.nil_append]
  after_results_simp
  rfl

/-- The bias as one row. -/
private theorem V_bias (c : Dev nD) :
    (V m c main_v20 : S1x50.Idx → Elt F .f32)
      = shapeCast S1x50 (m ((c.tc : Thread nD τ).loc main_arg4)) shapeCasts_S50_S1x50 := by
  dsimp only [V, V0]
  simp only [hostOps0, hostOps0_1, hostOps0_2, List.flatten_cons, List.flatten_nil, List.append_nil, List.cons_append,
    List.nil_append]
  after_results_simp
  rfl

/-- The per-tag scores as one row: the scores raised to one minus the tags' shares, computed before the launch. -/
private theorem V_valtag (c : Dev nD) :
    (V m c main_v19 : S1x50.Idx → Elt F .f32)
      = shapeCast S1x50 (valtagK (m ((c.tc : Thread nD τ).loc main_arg1)) (m ((c.tc : Thread nD τ).loc main_arg2))) shapeCasts_S50_S1x50 := by
  dsimp only [V, V0]
  simp only [hostOps0, hostOps0_1, hostOps0_2, List.flatten_cons, List.flatten_nil, List.append_nil, List.cons_append,
    List.nil_append]
  after_results_simp
  rfl

/-! ## The blocks at an entry

A block's entry `y` sits in its array at index × block size + `y` on each axis; the index is the tile number on the row
axis of `x` and of the tags and zero everywhere else. A row-major re-reading keeps the flat position, and flat row
`2048 t + r` of 16384 is batch entry `(2048 t + r) / 512`, position `(2048 t + r) % 512`. -/

/-- Row `r` of tile `t` of `x`. -/
theorem blk0_apply (c : Dev nD) (t : Fin cfg0.N) (r : Fin 2048) (k : Fin 1536) :
    blk0 m c t (ix2 r k) = m ((c.tc : Thread nD τ).loc main_arg0) (ix3 (Cert.Loss.rowB (Cert.Loss.tileRow (tile t) r)) (Cert.Loss.rowS (Cert.Loss.tileRow (tile t) r)) k) := by
  have hi : win0_0.index t (0 : Fin 2) = t.val ∧ win0_0.index t (1 : Fin 2) = 0 := by
    rcases fin_N0 t with rfl | rfl | rfl | rfl | rfl | rfl | rfl | rfl <;> decide
  unfold blk0 iblk
  rw [View.read_apply]
  show V m c main_v17 _ = _
  rw [V_x]
  refine shapeCast_apply _ _ _ _ ?_
  show (S32x512x1536.rowMajor _).val = (S16384x1536.rowMajor _).val
  rw [Shape.rowMajor_val_three, Shape.rowMajor_val_two]
  show ((Cert.Loss.rowB (Cert.Loss.tileRow (tile t) r)).val * 512 + (Cert.Loss.rowS (Cert.Loss.tileRow (tile t) r)).val) * 1536 + k.val
    = (win0_0.index t 0 * 2048 + 1 * r.val) * 1536 + (win0_0.index t 1 * 1536 + 1 * k.val)
  rw [hi.1, hi.2]
  have hr := r.isLt
  have ht : t.val < 8 := lt_of_lt_of_eq t.isLt N_0
  simp only [Cert.Loss.rowB, Cert.Loss.rowS, Cert.Loss.tileRow, tile]
  omega

/-- `W`, whole. -/
theorem blk1_apply (c : Dev nD) (t : Fin cfg0.N) (k : Fin 1536) (u : Fin 50) :
    blk1 m c t (ix2 k u) = m ((c.tc : Thread nD τ).loc main_arg3) (ix2 k u) := by
  have hi : win0_1.index t (0 : Fin 2) = 0 ∧ win0_1.index t (1 : Fin 2) = 0 := by
    rcases fin_N0 t with rfl | rfl | rfl | rfl | rfl | rfl | rfl | rfl <;> decide
  unfold blk1 iblk
  rw [View.read_apply]
  show V m c main_arg3 _ = _
  rw [V_main_arg3]
  congr 1
  funext a
  apply Fin.ext
  match a with
  | ⟨0, _⟩ => show win0_1.index t 0 * 1536 + 1 * k.val = k.val; rw [hi.1]; omega
  | ⟨1, _⟩ => show win0_1.index t 1 * 50 + 1 * u.val = u.val; rw [hi.2]; omega

/-- The bias, as one row. -/
theorem blk2_apply (c : Dev nD) (t : Fin cfg0.N) (u : Fin 50) :
    blk2 m c t (ix2 (0 : Fin 1) u) = m ((c.tc : Thread nD τ).loc main_arg4) (ix1 u) := by
  have hi : win0_2.index t (0 : Fin 2) = 0 ∧ win0_2.index t (1 : Fin 2) = 0 := by
    rcases fin_N0 t with rfl | rfl | rfl | rfl | rfl | rfl | rfl | rfl <;> decide
  unfold blk2 iblk
  rw [View.read_apply]
  show V m c main_v20 _ = _
  rw [V_bias]
  refine shapeCast_apply _ _ _ _ ?_
  show (S50.rowMajor _).val = (S1x50.rowMajor _).val
  rw [Shape.rowMajor_val_one, Shape.rowMajor_val_two]
  show u.val = (win0_2.index t 0 * 1 + 1 * (0 : Fin 1).val) * 50 + (win0_2.index t 1 * 50 + 1 * u.val)
  rw [hi.1, hi.2]
  have h0 : ((0 : Fin 1) : ℕ) = 0 := rfl
  omega

/-- Row `r` of tile `t` of the tags, as one column. -/
theorem blk3_apply (c : Dev nD) (t : Fin cfg0.N) (r : Fin 2048) :
    blk3 m c t (ix2 r (0 : Fin 1)) = m ((c.tc : Thread nD τ).loc main_arg1) (ix2 (Cert.Loss.rowB (Cert.Loss.tileRow (tile t) r)) (Cert.Loss.rowS (Cert.Loss.tileRow (tile t) r))) := by
  have hi : win0_3.index t (0 : Fin 2) = t.val ∧ win0_3.index t (1 : Fin 2) = 0 := by
    rcases fin_N0 t with rfl | rfl | rfl | rfl | rfl | rfl | rfl | rfl <;> decide
  unfold blk3 iblk
  rw [View.read_apply]
  show V m c main_v18 _ = _
  rw [V_tags]
  have hr := r.isLt
  have ht : t.val < 8 := lt_of_lt_of_eq t.isLt N_0
  have h0 : ((0 : Fin 1) : ℕ) = 0 := rfl
  -- through the unit axis to the flat row, then from the flat row to (batch entry, position)
  refine (shapeCast_apply _ _ _ (ix1 (Cert.Loss.tileRow (tile t) r)) ?_).trans (shapeCast_apply _ _ _ _ ?_)
  · show (S16384.rowMajor _).val = (S16384x1.rowMajor _).val
    rw [Shape.rowMajor_val_one, Shape.rowMajor_val_two]
    show (Cert.Loss.tileRow (tile t) r).val = (win0_3.index t 0 * 2048 + 1 * r.val) * 1 + (win0_3.index t 1 * 1 + 1 * (0 : Fin 1).val)
    rw [hi.1, hi.2]
    simp only [Cert.Loss.tileRow, tile]
    omega
  · show (S32x512.rowMajor _).val = (S16384.rowMajor _).val
    rw [Shape.rowMajor_val_one, Shape.rowMajor_val_two]
    show (Cert.Loss.rowB (Cert.Loss.tileRow (tile t) r)).val * 512 + (Cert.Loss.rowS (Cert.Loss.tileRow (tile t) r)).val = (Cert.Loss.tileRow (tile t) r).val
    simp only [Cert.Loss.rowB, Cert.Loss.rowS]
    omega

/-- The per-tag scores, as one row. -/
theorem blk4_apply (c : Dev nD) (t : Fin cfg0.N) (u : Fin 50) :
    blk4 m c t (ix2 (0 : Fin 1) u) = valtagK (m ((c.tc : Thread nD τ).loc main_arg1)) (m ((c.tc : Thread nD τ).loc main_arg2)) (ix1 u) := by
  have hi : win0_4.index t (0 : Fin 2) = 0 ∧ win0_4.index t (1 : Fin 2) = 0 := by
    rcases fin_N0 t with rfl | rfl | rfl | rfl | rfl | rfl | rfl | rfl <;> decide
  unfold blk4 iblk
  rw [View.read_apply]
  show V m c main_v19 _ = _
  rw [V_valtag]
  refine shapeCast_apply _ _ _ _ ?_
  show (S50.rowMajor _).val = (S1x50.rowMajor _).val
  rw [Shape.rowMajor_val_one, Shape.rowMajor_val_two]
  show u.val = (win0_4.index t 0 * 1 + 1 * (0 : Fin 1).val) * 50 + (win0_4.index t 1 * 50 + 1 * u.val)
  rw [hi.1, hi.2]
  have h0 : ((0 : Fin 1) : ℕ) = 0 := rfl
  omega

end Cert.KernelIdeal.Blocks

end
-- ==== Proof.KAccum.lean ====
/-
  The two accumulators after each grid point, by recursion on the point: cleared and updated with the first
  tile's blocks at point 0, then updated with each later tile's blocks. What the generated frame says the
  accumulators (and, at the last point, the two outputs) hold after a point is this chain.
-/
import proofs.«407716_j68401649156201_1_alg».proof.Proof.KPieces
import proofs.«407716_j68401649156201_1_alg».proof.Proof.KBlocks

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Pieces Cert.KernelIdeal.Blocks

variable {F : FTy → Type} [FloatOps F]
variable (m : (ℓ : Loc nD τ sig) → Buf (Elt F) ℓ)

/-- The first accumulator after point `n`. -/
def chain1 (c : Dev nD) : (n : ℕ) → n < cfg0.N → Vec F S1x1 .f32
  | 0, h => step1 clear1 (blk0 m c ⟨0, h⟩) (blk1 m c ⟨0, h⟩) (blk2 m c ⟨0, h⟩) (blk3 m c ⟨0, h⟩) (blk4 m c ⟨0, h⟩)
  | n + 1, h => step1 (chain1 c n (Nat.lt_of_succ_lt h)) (blk0 m c ⟨n + 1, h⟩) (blk1 m c ⟨n + 1, h⟩) (blk2 m c ⟨n + 1, h⟩) (blk3 m c ⟨n + 1, h⟩) (blk4 m c ⟨n + 1, h⟩)

/-- The second accumulator after point `n`. -/
def chain2 (c : Dev nD) : (n : ℕ) → n < cfg0.N → Vec F S1x1 .f32
  | 0, h => step2 clear2 (blk0 m c ⟨0, h⟩) (blk1 m c ⟨0, h⟩) (blk2 m c ⟨0, h⟩) (blk3 m c ⟨0, h⟩) (blk4 m c ⟨0, h⟩)
  | n + 1, h => step2 (chain2 c n (Nat.lt_of_succ_lt h)) (blk0 m c ⟨n + 1, h⟩) (blk1 m c ⟨n + 1, h⟩) (blk2 m c ⟨n + 1, h⟩) (blk3 m c ⟨n + 1, h⟩) (blk4 m c ⟨n + 1, h⟩)

/-- After every point the two carried accumulators hold the chain. -/
theorem outsAt_scratch (c : Dev nD) : ∀ (n : ℕ) (h : n < cfg0.N),
    (outsAt0 m c n h).2.2.1 = chain1 m c n h ∧ (outsAt0 m c n h).2.2.2 = chain2 m c n h
  | 0, h => by
    have h0 : (⟨0, h⟩ : Fin cfg0.N).val % 8 = 0 := rfl
    have h1 : ¬(⟨0, h⟩ : Fin cfg0.N).val % 8 = 7 := by dsimp only; omega
    have e := outsAt0_A m c ⟨0, h⟩ h0 h1
    dsimp only at e
    rw [e]
    dsimp only
    exact ⟨sA0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩),
      sA1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩)⟩
  | n + 1, h => by
    have ih := outsAt_scratch c n (Nat.lt_of_succ_lt h)
    have hN : cfg0.N = 8 := N_0
    have h0 : ¬(⟨n + 1, h⟩ : Fin cfg0.N).val % 8 = 0 := by dsimp only; omega
    by_cases h1 : (⟨n + 1, h⟩ : Fin cfg0.N).val % 8 = 7
    · have e := outsAt0_C m c ⟨n + 1, h⟩ h0 h1
      dsimp only at e
      rw [e]
      dsimp only
      refine ⟨(sC0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) _ _).trans ?_,
        (sC1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) _ _).trans ?_⟩
      · show step1 (outsAt0 m c n _).2.2.1 _ _ _ _ _ = step1 (chain1 m c n _) _ _ _ _ _
        rw [ih.1]
      · show step2 (outsAt0 m c n _).2.2.2 _ _ _ _ _ = step2 (chain2 m c n _) _ _ _ _ _
        rw [ih.2]
    · have e := outsAt0_B m c ⟨n + 1, h⟩ h0 h1
      dsimp only at e
      rw [e]
      dsimp only
      refine ⟨(sB0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) _ _).trans ?_,
        (sB1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) _ _).trans ?_⟩
      · show step1 (outsAt0 m c n _).2.2.1 _ _ _ _ _ = step1 (chain1 m c n _) _ _ _ _ _
        rw [ih.1]
      · show step2 (outsAt0 m c n _).2.2.2 _ _ _ _ _ = step2 (chain2 m c n _) _ _ _ _ _
        rw [ih.2]

/-- After the last point the two outputs hold it too. -/
theorem outsAt_last (c : Dev nD) (h : 7 < cfg0.N) :
    (outsAt0 m c 7 h).1 = chain1 m c 7 h ∧ (outsAt0 m c 7 h).2.1 = chain2 m c 7 h := by
  have ih := outsAt_scratch m c 6 (Nat.lt_of_succ_lt h)
  have h0 : ¬(⟨7, h⟩ : Fin cfg0.N).val % 8 = 0 := by dsimp only; omega
  have h1 : (⟨7, h⟩ : Fin cfg0.N).val % 8 = 7 := rfl
  have e := outsAt0_C m c ⟨7, h⟩ h0 h1
  dsimp only at e
  rw [e]
  dsimp only
  refine ⟨(oC5 c (grid0.coords ⟨7, h⟩) (ms0_0 ⟨7, h⟩) (hs0_0 ⟨7, h⟩) (ms0_1 ⟨7, h⟩) (hs0_1 ⟨7, h⟩) (ms0_2 ⟨7, h⟩) (hs0_2 ⟨7, h⟩) (ms0_3 ⟨7, h⟩) (hs0_3 ⟨7, h⟩) (ms0_4 ⟨7, h⟩) (hs0_4 ⟨7, h⟩) (ms0_5 ⟨7, h⟩) (hs0_5 ⟨7, h⟩) (ms0_6 ⟨7, h⟩) (hs0_6 ⟨7, h⟩) scM0_0 (Memref.isWhole_whole _) scM0_1 (Memref.isWhole_whole _) (fun hh => h0 ((hcond0_0 ⟨7, h⟩).mp hh)) ((hcond0_1 ⟨7, h⟩).mpr h1) (iblk m c 0 ⟨7, h⟩) (iblk m c 1 ⟨7, h⟩) (iblk m c 2 ⟨7, h⟩) (iblk m c 3 ⟨7, h⟩) (iblk m c 4 ⟨7, h⟩) _ _).trans ?_,
    (oC6 c (grid0.coords ⟨7, h⟩) (ms0_0 ⟨7, h⟩) (hs0_0 ⟨7, h⟩) (ms0_1 ⟨7, h⟩) (hs0_1 ⟨7, h⟩) (ms0_2 ⟨7, h⟩) (hs0_2 ⟨7, h⟩) (ms0_3 ⟨7, h⟩) (hs0_3 ⟨7, h⟩) (ms0_4 ⟨7, h⟩) (hs0_4 ⟨7, h⟩) (ms0_5 ⟨7, h⟩) (hs0_5 ⟨7, h⟩) (ms0_6 ⟨7, h⟩) (hs0_6 ⟨7, h⟩) scM0_0 (Memref.isWhole_whole _) scM0_1 (Memref.isWhole_whole _) (fun hh => h0 ((hcond0_0 ⟨7, h⟩).mp hh)) ((hcond0_1 ⟨7, h⟩).mpr h1) (iblk m c 0 ⟨7, h⟩) (iblk m c 1 ⟨7, h⟩) (iblk m c 2 ⟨7, h⟩) (iblk m c 3 ⟨7, h⟩) (iblk m c 4 ⟨7, h⟩) _ _).trans ?_⟩
  · show step1 (outsAt0 m c 6 _).2.2.1 _ _ _ _ _ = step1 (chain1 m c 6 _) _ _ _ _ _
    rw [ih.1]
  · show step2 (outsAt0 m c 6 _).2.2.2 _ _ _ _ _ = step2 (chain2 m c 6 _) _ _ _ _ _
    rw [ih.2]

end Cert.KernelIdeal.Accum

end
-- ==== Proof.KFinal.lean ====
/-
  The program's run, read: the two outputs are written back once, after the last grid point, from the two
  accumulators; the operations after the launch then divide each by the number of rows, weight them and add.
-/
import proofs.«407716_j68401649156201_1_alg».proof.Proof.KAccum
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem Idealize.ShloMosaic.ValueIdx

namespace Cert.KernelIdeal.Final

open Cert.KernelIdeal Cert.KernelIdeal.Gen Cert.KernelIdeal.Pieces Cert.KernelIdeal.Blocks Cert.KernelIdeal.Accum
open Idealize.ShloMosaic.Pipeline (Dat)

variable {F : FTy → Type} [FloatOps F]
variable (m : (ℓ : Loc nD τ sig) → Buf (Elt F) ℓ) (ρ : Dev nD → PrngReg)

/-- The operations after the launch, on the two one-element outputs: each read as a scalar and divided by 16384, the
    first weighted 0.8 and the second 0.2, added. -/
def tailK (a1 a2 : Vec F S1x1 .f32) : FVec F S_ .f32 :=
  addf (mulf (constant S_ .f32 0x3F4CCCCD#32) (Host.divf (shapeCast S_ a1 shapeCasts_S1x1_S_) (constant S_ .f32 0x46800000#32)))
    (mulf (constant S_ .f32 0x3E4CCCCD#32) (Host.divf (shapeCast S_ a2 shapeCasts_S1x1_S_) (constant S_ .f32 0x46800000#32)))

/-- The first accumulator after the last point, as contents of the first output array. -/
private abbrev res1 (c : Dev nD) (h7 : 7 < cfg0.N) : Buf (Elt F) ((c : Thread nD τ).loc main_v21_0) := chain1 m c 7 h7

/-- The second accumulator after the last point, as contents of the second output array. -/
private abbrev res2 (c : Dev nD) (h7 : 7 < cfg0.N) : Buf (Elt F) ((c : Thread nD τ).loc main_v21_1) := chain2 m c 7 h7

/-- Of the eight points, a point whose position is 7 modulo 8 is the last one. -/
private theorem last_of_mod (t : Fin cfg0.N) (h : t.val % 8 = 7) : t = t0_7 := by
  have hN : cfg0.N = 8 := N_0
  have := t.isLt
  exact Fin.ext (show t.val = 7 by omega)

/-- At a point whose position is 7 the first output's staging buffer holds the first accumulator's chain there, -/
private theorem last5 (c : Dev nD) (h7 : 7 < cfg0.N) (t : Fin cfg0.N) (ht : t.val = 7) :
    (outsAt0 m c t.val t.isLt).1 = chain1 m c 7 h7 := by
  obtain ⟨n, hn⟩ := t
  dsimp only at ht
  subst ht
  exact (outsAt_last m c h7).1

/-- and the second output's the second accumulator's. -/
private theorem last6 (c : Dev nD) (h7 : 7 < cfg0.N) (t : Fin cfg0.N) (ht : t.val = 7) :
    (outsAt0 m c t.val t.isLt).2.1 = chain2 m c 7 h7 := by
  obtain ⟨n, hn⟩ := t
  dsimp only at ht
  subst ht
  exact (outsAt_last m c h7).2

/-- At the last point the first output's block sits at offset (0, 0) of its array, -/
private theorem off5 : (fun a => win0_5.index t0_7 a * main_v21_0.ty.shape.size a) = fun _ => 0 :=
  funext fun a => by fin_cases a <;> decide

/-- and so does the second output's. -/
private theorem off6 : (fun a => win0_6.index t0_7 a * main_v21_1.ty.shape.size a) = fun _ => 0 :=
  funext fun a => by fin_cases a <;> decide

/-- The one write-back of the first output writes the first accumulator: the window is uncut, so what is written is the
    staging buffer's contents, and the output's one block, read at zero offsets, is the whole one-element array. -/
private theorem flushed_eq5 (c : Dev nD) (h7 : 7 < cfg0.N) (t : Fin cfg0.N) (hf : (cfg0.win 5).flush t = true) :
    (dats m 0 c).flushed 5 t = ((cfg0.win 5).blk t).view.read (Elt F) (res1 m c h7) := by
  obtain rfl : t = t0_7 := last_of_mod t ((flush0_5 t).mp hf)
  show (cfg0.win 5).cut (grid0.coords t0_7) ((dats m 0 c).after 5 t0_7) = _
  rw [after0_5, last5 m c h7 t0_7 rfl]
  exact (Memref.read_access_unit_zero (Elt F) main_v21_0 off5
    (fun a => Nat.le_of_eq (by rw [congrFun off5 a, Nat.zero_add])) (res1 m c h7)).symm

/-- The same for the second output and the second accumulator. -/
private theorem flushed_eq6 (c : Dev nD) (h7 : 7 < cfg0.N) (t : Fin cfg0.N) (hf : (cfg0.win 6).flush t = true) :
    (dats m 0 c).flushed 6 t = ((cfg0.win 6).blk t).view.read (Elt F) (res2 m c h7) := by
  obtain rfl : t = t0_7 := last_of_mod t ((flush0_6 t).mp hf)
  show (cfg0.win 6).cut (grid0.coords t0_7) ((dats m 0 c).after 6 t0_7) = _
  rw [after0_6, last6 m c h7 t0_7 rfl]
  exact (Memref.read_access_unit_zero (Elt F) main_v21_1 off6
    (fun a => Nat.le_of_eq (by rw [congrFun off6 a, Nat.zero_add])) (res2 m c h7)).symm

/-- So the first output array ends holding the first accumulator after the last point: that point's block, a unit-stride
    rectangle of the array's own sizes at zero offsets, contains every index. -/
private theorem final5 (c : Dev nD) (h7 : 7 < cfg0.N) : (dats m 0 c).arrAt 5 cfg0.N = res1 m c h7 :=
  (dats m 0 c).arrAt_eq_of_cover 5 (res1 m c h7) (flushed_eq5 m c h7) fun i =>
    ⟨t0_7, (flush0_5 t0_7).mpr rfl, by
      show i ∈ ((View.whole main_v21_0).slice (win0_5.rect t0_7)).set
      rw [View.set_slice_whole]
      exact View.mem_set_unit_zero off5 _ i⟩

/-- And the second output array the second accumulator. -/
private theorem final6 (c : Dev nD) (h7 : 7 < cfg0.N) : (dats m 0 c).arrAt 6 cfg0.N = res2 m c h7 :=
  (dats m 0 c).arrAt_eq_of_cover 6 (res2 m c h7) (flushed_eq6 m c h7) fun i =>
    ⟨t0_7, (flush0_6 t0_7).mpr rfl, by
      show i ∈ ((View.whole main_v21_1).slice (win0_6.rect t0_7)).set
      rw [View.set_slice_whole]
      exact View.mem_set_unit_zero off6 _ i⟩

/-- What the operations after the launch find in the first output array, -/
private theorem arr5 (c : Dev nD) (h7 : 7 < cfg0.N) :
    Pipeline.withArrays (cfgs 0).spec c (V0 m c) (fun w => (dats m 0 c).arrAt w (cfgs 0).N) (Proc.devRef .tc main_v21_0)
      = res1 m c h7 :=
  (Pipeline.withArrays_arr spec0 launch0.win.arr_inj c _ _ 5).trans (final5 m c h7)

/-- and in the second. -/
private theorem arr6 (c : Dev nD) (h7 : 7 < cfg0.N) :
    Pipeline.withArrays (cfgs 0).spec c (V0 m c) (fun w => (dats m 0 c).arrAt w (cfgs 0).N) (Proc.devRef .tc main_v21_1)
      = res2 m c h7 :=
  (Pipeline.withArrays_arr spec0 launch0.win.arr_inj c _ _ 6).trans (final6 m c h7)

/-- The eleven operations after the launch, composed, are the tail of the two output arrays' contents. -/
private theorem tail_eq (c : Dev nD) (h7 : 7 < cfg0.N) :
    Pipeline.afterTail₀ cfgs (dats m) 0 (V0 m) [hostOps1] c main_v28 = tailK (chain1 m c 7 h7) (chain2 m c 7 h7) := by
  unfold Pipeline.afterTail₀
  show StableHlo.after hostOps1 _ (Proc.devRef .tc main_v28) = _
  after_results
  rw [arr5 m c h7, arr6 m c h7]
  rfl

/-- Every run ends with the result at the tail of the two accumulators after the last point, the arguments unchanged. -/
theorem run_value (h7 : 7 < cfg0.N) : θ_run defs (onTc (τ := τ) (main (F := F))) ⟨m, fun _ => 0, ρ⟩ (fun r => ∀ c : Dev nD,
      r.2.mem ((c.tc : Thread nD τ).loc main_v28) = tailK (chain1 m c 7 h7) (chain2 m c 7 h7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run defs _ _).mono (fun _ h c =>
    ⟨((h c).2 main_v28 (Pipeline.mem_restRefs_of main_v28 (by decide) (by decide))).trans (tail_eq m c h7),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main m ρ)

end Cert.KernelIdeal.Final

end
-- ==== Proof.KPayA.lean ====
/-
  The body's prediction side on one tile, read at the extended reals, entry by entry. Row `r` of the tile has the
  logits `∑ k, x r k · W k t + b t` (the matrix product into a zero accumulator is the plain sum of products, and the
  changes of float format before it are the identity); its probabilities are the softmax of that row and its smoothed
  log-probabilities the logarithm of probability plus ε.
-/
import proofs.«407716_j68401649156201_1_alg».proof.Proof.Gen.KernelIdeal.Skeleton
import proofs.«407716_j68401649156201_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Pay

open Cert.KernelIdeal Cert.KernelIdeal.Gen

/-- The logits of row `r` of a tile. -/
def lgBlk (x0 : FVec Ideal S2048x1536 .f32) (x1 : FVec Ideal S1536x50 .f32) (x2 : FVec Ideal S1x50 .f32) (r : Fin 2048) : Fin 50 → EReal :=
  Cert.Loss.logits (fun k => x0 (ix2 r k)) (fun k t => x1 (ix2 k t)) (fun t => x2 (ix2 (0 : Fin 1) t))

/-! ## The matrix product at an entry

The product contracts the second axis of the left operand with the first of the right one; at output entry `(r, t)` and
contraction coordinate `k` the operands are read at `(r, k)` and `(k, t)`. -/

private theorem lhs_mm_0 (i : S2048x50.Idx) (q : dot_S2048x1536_S1536x50_S2048x50_1_0_0_1_n_n.contr.Idx) :
    (dot_S2048x1536_S1536x50_S2048x50_1_0_0_1_n_n.lhsIdx i q 0).val = (i 0).val := by
  unfold DotDims.lhsIdx
  rw [dif_neg (show ¬(0 : Fin S2048x1536.rank) ∈ dot_S2048x1536_S1536x50_S2048x50_1_0_0_1_n_n.lhsBatch by decide), dif_pos (show (0 : Fin S2048x1536.rank) ∈ dot_S2048x1536_S1536x50_S2048x50_1_0_0_1_n_n.lhsNonContracting by decide)]
  rfl
private theorem lhs_mm_1 (i : S2048x50.Idx) (q : dot_S2048x1536_S1536x50_S2048x50_1_0_0_1_n_n.contr.Idx) :
    (dot_S2048x1536_S1536x50_S2048x50_1_0_0_1_n_n.lhsIdx i q 1).val = (q ⟨0, by decide⟩).val :=
  dot_S2048x1536_S1536x50_S2048x50_1_0_0_1_n_n.lhsIdx_val_of_single rfl i q
private theorem rhs_mm_0 (i : S2048x50.Idx) (q : dot_S2048x1536_S1536x50_S2048x50_1_0_0_1_n_n.contr.Idx) :
    (dot_S2048x1536_S1536x50_S2048x50_1_0_0_1_n_n.rhsIdx i q 0).val = (q ⟨0, by decide⟩).val :=
  dot_S2048x1536_S1536x50_S2048x50_1_0_0_1_n_n.rhsIdx_val_of_single rfl i q
private theorem rhs_mm_1 (i : S2048x50.Idx) (q : dot_S2048x1536_S1536x50_S2048x50_1_0_0_1_n_n.contr.Idx) :
    (dot_S2048x1536_S1536x50_S2048x50_1_0_0_1_n_n.rhsIdx i q 1).val = (i 1).val := by
  unfold DotDims.rhsIdx
  rw [dif_neg (show ¬(1 : Fin S1536x50.rank) ∈ dot_S2048x1536_S1536x50_S2048x50_1_0_0_1_n_n.rhsBatch by decide), dif_pos (show (1 : Fin S1536x50.rank) ∈ dot_S2048x1536_S1536x50_S2048x50_1_0_0_1_n_n.rhsNonContracting by decide)]
  rfl

/-- Into the zero accumulator the product at `(r, t)` is the sum over `k` of left `(r, k)` times right `(k, t)`. -/
private theorem mm_apply (a : FVec Ideal S2048x1536 .bf16) (b : FVec Ideal S1536x50 .bf16) (r : Fin 2048) (t : Fin 50) :
    matmul dot_S2048x1536_S1536x50_S2048x50_1_0_0_1_n_n none a b (constant (F := Ideal) S2048x50 .f32 0x00000000#32) (ix2 r t)
      = ∑ k : Fin 1536, a (ix2 r k) * b (ix2 k t) := by
  simp only [matmul]
  rw [Ideal.matmul_constant_zero_apply, ← Equiv.sum_comp (ValueIdx.contrEquiv1 dot_S2048x1536_S1536x50_S2048x50_1_0_0_1_n_n 1536 rfl rfl).symm]
  refine Finset.sum_congr rfl fun k _ => ?_
  have hk := ValueIdx.contrEquiv1_symm_val dot_S2048x1536_S1536x50_S2048x50_1_0_0_1_n_n 1536 rfl rfl k
  have el : dot_S2048x1536_S1536x50_S2048x50_1_0_0_1_n_n.lhsIdx (ix2 r t) ((ValueIdx.contrEquiv1 dot_S2048x1536_S1536x50_S2048x50_1_0_0_1_n_n 1536 rfl rfl).symm k) = ix2 r k := funext fun a => Fin.ext (by
    match a with
    | ⟨0, _⟩ => exact lhs_mm_0 _ _
    | ⟨1, _⟩ => exact (lhs_mm_1 _ _).trans hk)
  have er : dot_S2048x1536_S1536x50_S2048x50_1_0_0_1_n_n.rhsIdx (ix2 r t) ((ValueIdx.contrEquiv1 dot_S2048x1536_S1536x50_S2048x50_1_0_0_1_n_n 1536 rfl rfl).symm k) = ix2 k t := funext fun a => Fin.ext (by
    match a with
    | ⟨0, _⟩ => exact (rhs_mm_0 _ _).trans hk
    | ⟨1, _⟩ => exact rhs_mm_1 _ _)
  rw [el, er]

/-! ## A vector as a column, and a column spread along the rows -/

/-- A vector of length `a` viewed as an `a × 1` column: entry `(i, 0)` of the column is entry `i` of the vector. -/
private theorem col_apply {α : Type} {a : ℕ} (v : (⟨1, ![a]⟩ : Shape).Idx → α)
    (h : (⟨1, ![a]⟩ : Shape).ShapeCasts ⟨2, ![a, 1]⟩) (i : Fin a) (u : Fin 1) :
    shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- An `a × 1` column spread to `a × b`: entry `(p, q)` is the column's entry `(p, 0)`. -/
private theorem spread_apply {α : Type} {a b : ℕ} (c : (⟨2, ![a, 1]⟩ : Shape).Idx → α)
    (h : (⟨2, ![a, 1]⟩ : Shape).Broadcasts ⟨2, ![a, b]⟩) (p : Fin a) (q : Fin b) :
    broadcastTo ⟨2, ![a, b]⟩ c h (ix2 p q) = c (ix2 p (0 : Fin 1)) := by
  refine broadcastTo_apply c h (ix2 p q) (ix2 p (0 : Fin 1)) fun ax => ?_
  match ax with
  | ⟨0, _⟩ =>
    show p.val = if a = 1 then 0 else p.val
    split
    · have := p.isLt; omega
    · rfl
  | ⟨1, _⟩ => rfl

/-! ## The two reductions along a row -/

/-- The maximum along row `r`: the fold of `max` from `-∞` over the row's 50 entries. -/
private theorem rowmax_apply (v : FVec Ideal S2048x50 .f32) (r : Fin 2048) :
    multiReduction (F := Ideal) .maximumf [1] S2048 v 0xFF800000#32 reduces_S2048x50_S2048 (.inl rfl) rfl (ix1 r)
      = (Finset.univ : Finset (Fin 50)).fold max (Ideal.ofBits .f32 0xFF800000#32) (fun u => v (ix2 r u)) := by
  refine (Ideal.multiReduction_maximumf_single v 0xFF800000#32 reduces_S2048x50_S2048 (.inl rfl) rfl (ix1 r)).trans ?_
  show (Finset.univ : Finset (Fin 50)).fold max (Ideal.ofBits .f32 0xFF800000#32) (v ∘ (reduces_S2048x50_S2048).lift (ix1 r)) = _
  refine congrArg (fun f => (Finset.univ : Finset (Fin 50)).fold max (Ideal.ofBits .f32 0xFF800000#32) f) (funext fun u => ?_)
  refine congrArg v (funext fun a => ?_)
  match a with
  | ⟨0, _⟩ => rfl
  | ⟨1, _⟩ => rfl

/-- The sum along row `r`. -/
private theorem rowsum_apply (e : FVec Ideal S2048x50 .f32) (r : Fin 2048) :
    multiReduction (F := Ideal) .add [1] S2048 e 0x00000000#32 reduces_S2048x50_S2048 (.inl rfl) rfl (ix1 r)
      = ∑ u : Fin 50, e (ix2 r u) := by
  refine (Ideal.multiReduction_add_single e 0x00000000#32 reduces_S2048x50_S2048 (.inl rfl) rfl (ix1 r)).trans ?_
  show ∑ u : Fin 50, e ((reduces_S2048x50_S2048).lift (ix1 r) u) = _
  refine Finset.sum_congr rfl fun u _ => congrArg e (funext fun a => ?_)
  match a with
  | ⟨0, _⟩ => rfl
  | ⟨1, _⟩ => rfl

/-! ## The logits of the tile -/

/-- The logits block as the body spells it: the product of the two operands (each first passed through a change of
    format, the left one also through a cast to its own shape) into a zero accumulator, plus the bias row spread over the rows. -/
private def lgVec (x0 : FVec Ideal S2048x1536 .f32) (x1 : FVec Ideal S1536x50 .f32) (x2 : FVec Ideal S1x50 .f32) :
    FVec Ideal S2048x50 .f32 :=
  addf (matmul dot_S2048x1536_S1536x50_S2048x50_1_0_0_1_n_n none
      (truncf .bf16 (shapeCast S2048x1536 x0 shapeCasts_S2048x1536_S2048x1536) bitsLt_bf16_f32)
      (truncf .bf16 x1 bitsLt_bf16_f32) (constant (F := Ideal) S2048x50 .f32 0x00000000#32))
    (broadcastTo S2048x50 (shapeCast S1x50 x2 shapeCasts_S1x50_S1x50) broadcasts_S1x50_S2048x50)

/-- Entry `(r, t)` of the logits block is the logit `t` of row `r`: at the extended reals a change of format is the
    identity, so is a cast to the same shape, and the bias row is read at its one row. -/
private theorem lgVec_apply (x0 : FVec Ideal S2048x1536 .f32) (x1 : FVec Ideal S1536x50 .f32) (x2 : FVec Ideal S1x50 .f32)
    (r : Fin 2048) (t : Fin 50) : lgVec x0 x1 x2 (ix2 r t) = lgBlk x0 x1 x2 r t := by
  have em := mm_apply (truncf .bf16 (shapeCast S2048x1536 x0 shapeCasts_S2048x1536_S2048x1536) bitsLt_bf16_f32)
    (truncf .bf16 x1 bitsLt_bf16_f32) r t
  have es : ∀ k : Fin 1536,
      (truncf .bf16 (shapeCast S2048x1536 x0 shapeCasts_S2048x1536_S2048x1536) bitsLt_bf16_f32 : FVec Ideal S2048x1536 .bf16) (ix2 r k)
          * (truncf .bf16 x1 bitsLt_bf16_f32 : FVec Ideal S1536x50 .bf16) (ix2 k t)
        = x0 (ix2 r k) * x1 (ix2 k t) := fun k =>
    congrArg (fun z : EReal => z * x1 (ix2 k t)) (congrFun (shapeCast_self x0 shapeCasts_S2048x1536_S2048x1536) (ix2 r k))
  have eb : broadcastTo S2048x50 (shapeCast S1x50 x2 shapeCasts_S1x50_S1x50) broadcasts_S1x50_S2048x50 (ix2 r t)
      = x2 (ix2 (0 : Fin 1) t) :=
    (broadcastTo_1b_ab_apply _ broadcasts_S1x50_S2048x50 r t).trans
      (congrFun (shapeCast_self x2 shapeCasts_S1x50_S1x50) (ix2 (0 : Fin 1) t))
  show (matmul dot_S2048x1536_S1536x50_S2048x50_1_0_0_1_n_n none
      (truncf .bf16 (shapeCast S2048x1536 x0 shapeCasts_S2048x1536_S2048x1536) bitsLt_bf16_f32)
      (truncf .bf16 x1 bitsLt_bf16_f32) (constant (F := Ideal) S2048x50 .f32 0x00000000#32) (ix2 r t) : EReal)
    + broadcastTo S2048x50 (shapeCast S1x50 x2 shapeCasts_S1x50_S1x50) broadcasts_S1x50_S2048x50 (ix2 r t)
    = (∑ k : Fin 1536, x0 (ix2 r k) * x1 (ix2 k t)) + x2 (ix2 (0 : Fin 1) t)
  rw [em, eb, Finset.sum_congr rfl fun k _ => es k]

/-! ## The softmax of a block, row by row -/

/-- The row maxima of a block, each joined once more with `-∞`. -/
private def mxVec (v : FVec Ideal S2048x50 .f32) : FVec Ideal S2048 .f32 :=
  maximumf (broadcast S2048 (Scalar.ofBits (F := Ideal) .f32 0xFF800000#32))
    (multiReduction (F := Ideal) .maximumf [1] S2048 v 0xFF800000#32 reduces_S2048x50_S2048 (.inl rfl) rfl)

private theorem mxVec_apply (v : FVec Ideal S2048x50 .f32) (r : Fin 2048) :
    mxVec v (ix1 r) = Cert.Loss.rmax (fun u => v (ix2 r u)) :=
  congrArg (fun z : EReal => max (Ideal.ofBits .f32 0xFF800000#32) z) (rowmax_apply v r)

/-- The exponentials of each entry's distance to its row's maximum. -/
private def exVec (v : FVec Ideal S2048x50 .f32) : FVec Ideal S2048x50 .f32 :=
  exp (subf v (broadcastTo S2048x50 (shapeCast S2048x1 (mxVec v) shapeCasts_S2048_S2048x1) broadcasts_S2048x1_S2048x50))

private theorem exVec_apply (v : FVec Ideal S2048x50 .f32) (r : Fin 2048) (t : Fin 50) :
    exVec v (ix2 r t) = Ideal.exp (v (ix2 r t) - Cert.Loss.rmax (fun u => v (ix2 r u))) := by
  have e : broadcastTo S2048x50 (shapeCast S2048x1 (mxVec v) shapeCasts_S2048_S2048x1) broadcasts_S2048x1_S2048x50 (ix2 r t)
      = Cert.Loss.rmax (fun u => v (ix2 r u)) :=
    (spread_apply _ broadcasts_S2048x1_S2048x50 r t).trans
      ((col_apply (mxVec v) shapeCasts_S2048_S2048x1 r 0).trans (mxVec_apply v r))
  exact congrArg (fun z : EReal => Ideal.exp (v (ix2 r t) - z)) e

/-- Each exponential over its row's sum of exponentials. -/
private def smVec (v : FVec Ideal S2048x50 .f32) : FVec Ideal S2048x50 .f32 :=
  divf (exVec v)
    (broadcastTo S2048x50
      (shapeCast S2048x1 (multiReduction (F := Ideal) .add [1] S2048 (exVec v) 0x00000000#32 reduces_S2048x50_S2048 (.inl rfl) rfl)
        shapeCasts_S2048_S2048x1)
      broadcasts_S2048x1_S2048x50)

private theorem smVec_apply (v : FVec Ideal S2048x50 .f32) (r : Fin 2048) (t : Fin 50) :
    smVec v (ix2 r t) = Cert.Loss.sm (fun u => v (ix2 r u)) t := by
  have e : broadcastTo S2048x50
      (shapeCast S2048x1 (multiReduction (F := Ideal) .add [1] S2048 (exVec v) 0x00000000#32 reduces_S2048x50_S2048 (.inl rfl) rfl)
        shapeCasts_S2048_S2048x1)
      broadcasts_S2048x1_S2048x50 (ix2 r t)
      = ∑ u : Fin 50, Ideal.exp (v (ix2 r u) - Cert.Loss.rmax (fun u => v (ix2 r u))) :=
    (spread_apply _ broadcasts_S2048x1_S2048x50 r t).trans
      ((col_apply _ shapeCasts_S2048_S2048x1 r 0).trans
        ((rowsum_apply (exVec v) r).trans (Finset.sum_congr rfl fun u _ => exVec_apply v r u)))
  exact congrArg₂ Ideal.div (exVec_apply v r t) e

/-- The probability block is the row-by-row softmax of the logits block. -/
private theorem pay5_eq (x0 : FVec Ideal S2048x1536 .f32) (x1 : FVec Ideal S1536x50 .f32) (x2 : FVec Ideal S1x50 .f32) :
    k0_pay5 (F := Ideal) x0 x1 x2 = smVec (lgVec x0 x1 x2) := rfl

/-- The probabilities: entry (r, t) is the softmax of row r's logits at t. -/
theorem pay5_apply (x0 : FVec Ideal S2048x1536 .f32) (x1 : FVec Ideal S1536x50 .f32) (x2 : FVec Ideal S1x50 .f32)
    (r : Fin 2048) (t : Fin 50) :
    k0_pay5 (F := Ideal) x0 x1 x2 (ix2 r t) = Cert.Loss.sm (lgBlk x0 x1 x2 r) t :=
  (congrFun (pay5_eq x0 x1 x2) (ix2 r t)).trans
    ((smVec_apply (lgVec x0 x1 x2) r t).trans
      (congrArg (fun f : Fin 50 → EReal => Cert.Loss.sm f t) (funext fun u => lgVec_apply x0 x1 x2 r u)))

/-- The smoothed log-probabilities. -/
theorem pay6_apply (x0 : FVec Ideal S2048x1536 .f32) (x1 : FVec Ideal S1536x50 .f32) (x2 : FVec Ideal S1x50 .f32)
    (r : Fin 2048) (t : Fin 50) :
    k0_pay6 (F := Ideal) x0 x1 x2 (ix2 r t) = Cert.Loss.lp (lgBlk x0 x1 x2 r) t :=
  congrArg (fun z : EReal => Ideal.log (z + Cert.Loss.eps)) (pay5_apply x0 x1 x2 r t)

end Cert.KernelIdeal.Pay

end
-- ==== Proof.KPayB.lean ====
/-
  The body's target side on one tile, read entry by entry. Row `r` of the tile has the target scores "the tag's own
  score at the tag's position, one elsewhere": the row's tag word is compared with the position number along the
  row, and the per-tag score row is selected where they agree. The row maximum the body takes next is the fold of
  `max` from −∞ over the row.
-/
import proofs.«407716_j68401649156201_1_alg».proof.Proof.Gen.KernelIdeal.Skeleton
import proofs.«407716_j68401649156201_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Pay

open Cert.KernelIdeal Cert.KernelIdeal.Gen

/-- The target scores of row `r` of a tile. -/
def ysBlk (x3 : IVec S2048x1 32) (x4 : FVec Ideal S1x50 .f32) (r : Fin 2048) : Fin 50 → EReal :=
  Cert.Loss.scores (x3 (ix2 r (0 : Fin 1))) (fun t => x4 (ix2 (0 : Fin 1) t))

/-- A column [2048, 1] broadcast along the rows' positions reads, at (r, t), the column at (r, 0). -/
private theorem bcast_col {α : Type} (x : S2048x1.Idx → α) (h : S2048x1.Broadcasts S2048x50) (r : Fin 2048) (t : Fin 50) :
    broadcastTo S2048x50 x h (ix2 r t) = x (ix2 r (0 : Fin 1)) :=
  broadcastTo_apply x h (ix2 r t) (ix2 r (0 : Fin 1)) fun a =>
    match a with
    | ⟨0, _⟩ => rfl
    | ⟨1, _⟩ => rfl

/-- A row [1, 50] broadcast down the tile's rows reads, at (r, t), the row at (0, t). -/
private theorem bcast_row {α : Type} (x : S1x50.Idx → α) (h : S1x50.Broadcasts S2048x50) (r : Fin 2048) (t : Fin 50) :
    broadcastTo S2048x50 x h (ix2 r t) = x (ix2 (0 : Fin 1) t) :=
  broadcastTo_apply x h (ix2 r t) (ix2 (0 : Fin 1) t) fun a =>
    match a with
    | ⟨0, _⟩ => rfl
    | ⟨1, _⟩ => rfl

/-- Selecting on the bit "the two words are equal" is the `if` on their equality. -/
private theorem select_cmpi_eq {α : Type} {w : Nat} (u v : BitVec w) (a b : α) :
    Scalar.select (IntOp.cmpi .eq u v) a b = if u = v then a else b := by
  by_cases h : u = v
  · have e : IntOp.cmpi .eq u v = 1#1 := by simp [IntOp.cmpi, h]
    rw [e, select_one, if_pos h]
  · have hb : (u == v) = false := beq_eq_false_iff_ne.mpr h
    have e : IntOp.cmpi .eq u v = 0#1 := by
      show BitVec.ofBool (u == v) = 0#1
      rw [hb]; rfl
    rw [e, select_zero, if_neg h]

theorem pay7_apply (x3 : IVec S2048x1 32) (x4 : FVec Ideal S1x50 .f32) (r : Fin 2048) (t : Fin 50) :
    k0_pay7 (F := Ideal) x3 x4 (ix2 r t) = ysBlk x3 x4 r t := by
  unfold k0_pay7
  simp only [shapeCast_self]
  show Scalar.select
      (IntOp.cmpi .eq (broadcastTo S2048x50 x3 broadcasts_S2048x1_S2048x50 (ix2 r t))
        (iota .tc S2048x50 32 [1] iota_S2048x50_d1_w32 (ix2 r t)))
      (broadcastTo S2048x50 x4 broadcasts_S1x50_S2048x50 (ix2 r t)) (Ideal.ofBits .f32 0x3F800000#32) = _
  rw [bcast_col, bcast_row, iota_single_apply, select_cmpi_eq]
  rfl

theorem pay8_apply (x3 : IVec S2048x1 32) (x4 : FVec Ideal S1x50 .f32) (r : Fin 2048) :
    k0_pay8 (F := Ideal) x3 x4 (ix1 r) = (Finset.univ : Finset (Fin 50)).fold max Cert.Loss.ninf (ysBlk x3 x4 r) := by
  unfold k0_pay8
  refine (Ideal.multiReduction_maximumf_single (k0_pay7 (F := Ideal) x3 x4) _ reduces_S2048x50_S2048 _ _ (ix1 r)).trans ?_
  have hl : ∀ u : Fin 50, reduces_S2048x50_S2048.lift (ix1 r) u = ix2 r u := fun u =>
    funext fun a => match a with
      | ⟨0, _⟩ => rfl
      | ⟨1, _⟩ => rfl
  have e : (k0_pay7 (F := Ideal) x3 x4 ∘ reduces_S2048x50_S2048.lift (ix1 r)) = ysBlk x3 x4 r :=
    funext fun u => (congrArg (k0_pay7 (F := Ideal) x3 x4) (hl u)).trans (pay7_apply x3 x4 r u)
  show (Finset.univ : Finset (Fin 50)).fold max (Ideal.ofBits .f32 0xFF800000#32)
      (k0_pay7 (F := Ideal) x3 x4 ∘ reduces_S2048x50_S2048.lift (ix1 r)) = _
  rw [e]
  rfl

end Cert.KernelIdeal.Pay

end
-- ==== Proof.KPay.lean ====
/-
  The two accumulator updates on one tile, read at the extended reals: the first adds to the accumulator zero
  minus the sum over the tile's rows of `row1` (target softmax times smoothed log-probability), the second zero minus
  the sum of `row2`. The joint sum over a 2048 × 50 tile is the sum over rows of the sum over positions; the clearing
  stores write zero.
-/
import proofs.«407716_j68401649156201_1_alg».proof.Proof.KPayA
import proofs.«407716_j68401649156201_1_alg».proof.Proof.KPayB

noncomputable section

open Idealize.ShloMosaic Idealize.ShloMosaic.TcCoe Idealize.SL.Sem Idealize.ShloMosaic.ValueIdx

namespace Cert.KernelIdeal.Pay

open Cert.KernelIdeal Cert.KernelIdeal.Gen

/-- A column made from a vector: an `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many: an `[a, 1]` array broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one index of a `[1, 1]` block. -/
private theorem idx11_eq (j : S1x1.Idx) : j = ix2 (0 : Fin 1) (0 : Fin 1) :=
  funext fun d => match d with
    | ⟨0, _⟩ => Subsingleton.elim (α := Fin 1) _ _
    | ⟨1, _⟩ => Subsingleton.elim (α := Fin 1) _ _

/-- The index set of a `[1, a, b]` block is the product of its two proper coordinate ranges. -/
private def idxEquiv1ab {a b : ℕ} : (⟨3, ![1, a, b]⟩ : Shape).Idx ≃ Fin a × Fin b where
  toFun i := (i 1, i 2)
  invFun p := ix3 (0 : Fin 1) p.1 p.2
  left_inv i := funext fun d => match d with
    | ⟨0, _⟩ => Subsingleton.elim (α := Fin 1) _ _
    | ⟨1, _⟩ => rfl
    | ⟨2, _⟩ => rfl
  right_inv _ := rfl

/-- So a sum over it is the double sum over those coordinates. -/
private theorem sum_idx1ab {M : Type} [AddCommMonoid M] {a b : ℕ} (f : (⟨3, ![1, a, b]⟩ : Shape).Idx → M) :
    ∑ i, f i = ∑ r : Fin a, ∑ t : Fin b, f (ix3 (0 : Fin 1) r t) := by
  rw [← Equiv.sum_comp (idxEquiv1ab (a := a) (b := b)).symm f, Fintype.sum_prod_type]
  rfl

/-- The inserted index of the row reduction of the tile is `(r, k)`. -/
private theorem lift_row (h : S2048x50.Reduces [1] S2048) (r : Fin 2048) (k : Fin 50) :
    h.lift (ix1 r) k = ix2 r k :=
  funext fun d => match d with
    | ⟨0, _⟩ => Fin.ext rfl
    | ⟨1, _⟩ => Fin.ext rfl

/-- A per-row quantity spread along its row: a vector made a column and broadcast over the tile reads, at `(r, t)`,
    the vector at `r`. -/
private theorem col_apply (w : FVec Ideal S2048 .f32) (h1 : S2048.ShapeCasts S2048x1) (h2 : S2048x1.Broadcasts S2048x50)
    (r : Fin 2048) (t : Fin 50) :
    broadcastTo S2048x50 (shapeCast S2048x1 w h1) h2 (ix2 r t) = w (ix1 r) :=
  (broadcastTo_a1_ab_apply _ h2 r t).trans (shapeCast_a_a1_apply w h1 r 0)

/-- The joint sum of a tile, accumulated: a `[1, 1]` accumulator plus (zero minus the sum of the tile over both axes),
    as the body computes it through a leading unit axis, a reduction to one element and a splat. -/
private theorem acc_step (m : FVec Ideal S2048x50 .f32) (a : FVec Ideal S1x1 .f32)
    (h1 : S2048x50.ShapeCasts S1x2048x50) (h2 : S1x2048x50.Reduces [1, 2] S1) (hφ : FKind.Formats .f32)
    (hacc : (0x00000000#32 : BitVec 32) = FKind.add.neutral .f32 hφ) (h3 : S1.ShapeCasts S1x1x1)
    (h4 : ∀ a, (![0, 0, 0] : Fin 3 → Nat) a < S1x1x1.size a) (j : S1x1.Idx) :
    addf a (subf (broadcast S1x1 (FloatOps.ofBits (F := Ideal) .f32 0x00000000#32))
      (broadcast S1x1 (extractAt ![0, 0, 0] (shapeCast S1x1x1
        (multiReduction .add [1, 2] S1 (shapeCast S1x2048x50 m h1) 0x00000000#32 h2 hφ hacc) h3) h4))) j
      = a (ix2 (0 : Fin 1) (0 : Fin 1)) + (0 - ∑ r : Fin 2048, ∑ t : Fin 50, m (ix2 r t)) := by
  show a j + (Ideal.ofBits .f32 0x00000000#32 - _) = _
  rw [idx11_eq j, Ideal.ofBits_zero_f32]
  refine congrArg (fun s => a (ix2 (0 : Fin 1) (0 : Fin 1)) + (0 - s)) ?_
  refine (Ideal.multiReduction_add_total _ _ h2 (fun b => by fin_cases b; rfl) hφ hacc _).trans ?_
  refine (sum_idx1ab _).trans ?_
  exact Finset.sum_congr rfl fun r _ => Finset.sum_congr rfl fun t _ => shapeCast_ab_1ab_apply m h1 0 r t

/-- The exponential of a score row shifted by the row's (floored) maximum, read at `(r, t)`. -/
private theorem shifted_apply (v37 : FVec Ideal S2048x50 .f32) (v38 : FVec Ideal S2048 .f32)
    (h1 : S2048.ShapeCasts S2048x1) (h2 : S2048x1.Broadcasts S2048x50) (r : Fin 2048) (t : Fin 50) :
    exp (subf v37 (broadcastTo S2048x50 (shapeCast S2048x1
        (maximumf (broadcast S2048 (FloatOps.ofBits (F := Ideal) .f32 0xFF800000#32)) v38) h1) h2)) (ix2 r t)
      = Ideal.exp (v37 (ix2 r t) - max Cert.Loss.ninf (v38 (ix1 r))) := by
  show Ideal.exp (v37 (ix2 r t) - broadcastTo S2048x50 (shapeCast S2048x1
        (maximumf (broadcast S2048 (FloatOps.ofBits (F := Ideal) .f32 0xFF800000#32)) v38) h1) h2 (ix2 r t)) = _
  rw [col_apply]
  rfl

/-- The softmax of a score row as the body computes it — exponentials of the shifted row over their row sum — read at
    `(r, t)`. -/
private theorem smx_apply (v37 : FVec Ideal S2048x50 .f32) (v38 : FVec Ideal S2048 .f32)
    (h1 : S2048.ShapeCasts S2048x1) (h2 : S2048x1.Broadcasts S2048x50) (h3 : S2048x50.Reduces [1] S2048)
    (hφ : FKind.Formats .f32) (hacc : (0x00000000#32 : BitVec 32) = FKind.add.neutral .f32 hφ) (r : Fin 2048) (t : Fin 50) :
    divf (exp (subf v37 (broadcastTo S2048x50 (shapeCast S2048x1
          (maximumf (broadcast S2048 (FloatOps.ofBits (F := Ideal) .f32 0xFF800000#32)) v38) h1) h2)))
        (broadcastTo S2048x50 (shapeCast S2048x1 (multiReduction .add [1] S2048
          (exp (subf v37 (broadcastTo S2048x50 (shapeCast S2048x1
            (maximumf (broadcast S2048 (FloatOps.ofBits (F := Ideal) .f32 0xFF800000#32)) v38) h1) h2)))
          0x00000000#32 h3 hφ hacc) h1) h2) (ix2 r t)
      = Ideal.div (Ideal.exp (v37 (ix2 r t) - max Cert.Loss.ninf (v38 (ix1 r))))
          (∑ u : Fin 50, Ideal.exp (v37 (ix2 r u) - max Cert.Loss.ninf (v38 (ix1 r)))) := by
  rw [divf_apply, col_apply, shifted_apply]
  refine congrArg (Ideal.div _) ?_
  refine (Ideal.multiReduction_add_single _ _ h3 hφ hacc (ix1 r)).trans ?_
  show (∑ u : Fin 50, _) = _
  refine Finset.sum_congr rfl fun u _ => ?_
  rw [lift_row]
  exact shifted_apply v37 v38 h1 h2 r u

/-- The first accumulator update over arbitrary operands: the accumulator plus zero minus the sum, over rows and
    positions, of (softmax of the score row, shifted by the row's maximum) times the second factor. -/
private theorem pay1_gen (v26 v37 : FVec Ideal S2048x50 .f32) (v38 : FVec Ideal S2048 .f32) (a : FVec Ideal S1x1 .f32) :
    k0_pay1 (F := Ideal) v26 v37 v38 a
      = fun _ => a (ix2 (0 : Fin 1) (0 : Fin 1)) + (0 - ∑ r : Fin 2048, ∑ t : Fin 50,
          Ideal.div (Ideal.exp (v37 (ix2 r t) - max Cert.Loss.ninf (v38 (ix1 r))))
            (∑ u : Fin 50, Ideal.exp (v37 (ix2 r u) - max Cert.Loss.ninf (v38 (ix1 r)))) * v26 (ix2 r t)) := by
  funext j
  unfold k0_pay1
  simp only [shapeCast_self]
  refine (acc_step _ a _ _ _ _ _ _ j).trans ?_
  refine congrArg (fun s => a (ix2 (0 : Fin 1) (0 : Fin 1)) + (0 - s)) ?_
  refine Finset.sum_congr rfl fun r _ => Finset.sum_congr rfl fun t _ => ?_
  rw [mulf_apply]
  exact congrArg (· * v26 (ix2 r t)) (smx_apply v37 v38 _ _ _ _ _ r t)

/-- The second accumulator update over arbitrary operands: the accumulator plus zero minus the sum, over rows and
    positions, of the product of the two factors. -/
private theorem pay2_gen (v23 v26 : FVec Ideal S2048x50 .f32) (a : FVec Ideal S1x1 .f32) :
    k0_pay2 (F := Ideal) v23 v26 a
      = fun _ => a (ix2 (0 : Fin 1) (0 : Fin 1)) + (0 - ∑ r : Fin 2048, ∑ t : Fin 50, v23 (ix2 r t) * v26 (ix2 r t)) := by
  funext j
  unfold k0_pay2
  simp only [shapeCast_self]
  exact acc_step (mulf v23 v26) a _ _ _ _ _ _ j

theorem pay1_eq (x0 : FVec Ideal S2048x1536 .f32) (x1 : FVec Ideal S1536x50 .f32) (x2 : FVec Ideal S1x50 .f32)
    (x3 : IVec S2048x1 32) (x4 : FVec Ideal S1x50 .f32) (a : FVec Ideal S1x1 .f32) :
    k0_pay1 (F := Ideal) (k0_pay6 (F := Ideal) x0 x1 x2) (k0_pay7 (F := Ideal) x3 x4) (k0_pay8 (F := Ideal) x3 x4) a
      = fun _ => a (ix2 (0 : Fin 1) (0 : Fin 1)) + (0 - ∑ r : Fin 2048, Cert.Loss.row1 (lgBlk x0 x1 x2 r) (ysBlk x3 x4 r)) := by
  refine (pay1_gen _ _ _ a).trans ?_
  funext _
  refine congrArg (fun s => a (ix2 (0 : Fin 1) (0 : Fin 1)) + (0 - s)) ?_
  refine Finset.sum_congr rfl fun r _ => ?_
  -- row r: the score row is the target scores, its maximum their fold, the second factor the log-probabilities;
  -- the shifted-exponential quotient is then the softmax of the target scores as the specification writes it
  simp only [pay6_apply, pay7_apply, pay8_apply]
  rfl

theorem pay2_eq (x0 : FVec Ideal S2048x1536 .f32) (x1 : FVec Ideal S1536x50 .f32) (x2 : FVec Ideal S1x50 .f32)
    (a : FVec Ideal S1x1 .f32) :
    k0_pay2 (F := Ideal) (k0_pay5 (F := Ideal) x0 x1 x2) (k0_pay6 (F := Ideal) x0 x1 x2) a
      = fun _ => a (ix2 (0 : Fin 1) (0 : Fin 1)) + (0 - ∑ r : Fin 2048, Cert.Loss.row2 (lgBlk x0 x1 x2 r)) := by
  refine (pay2_gen _ _ a).trans ?_
  funext _
  refine congrArg (fun s => a (ix2 (0 : Fin 1) (0 : Fin 1)) + (0 - s)) ?_
  refine Finset.sum_congr rfl fun r _ => ?_
  -- row r: probabilities times log-probabilities, summed over the positions
  simp only [pay5_apply, pay6_apply]
  rfl

theorem pay3_eq : (k0_pay3 (F := Ideal)) = fun _ => (0 : EReal) := by
  unfold k0_pay3
  simp only [shapeCast_self]
  funext j
  show Ideal.ofBits .f32 0x00000000#32 = 0
  exact Ideal.ofBits_zero_f32

theorem pay4_eq : (k0_pay4 (F := Ideal)) = fun _ => (0 : EReal) := by
  unfold k0_pay4
  simp only [shapeCast_self]
  funext j
  show Ideal.ofBits .f32 0x00000000#32 = 0
  exact Ideal.ofBits_zero_f32

end Cert.KernelIdeal.Pay

end
-- ==== Proof.KValue.lean ====
/-
  The idealized kernel's result as one extended real of the argument arrays: the tile-by-tile form of the two
  losses (`Cert.Loss.tiled`) over the row terms of the arrays. Row `r` of the blocks at grid point `t` is flat row
  `2048 t + r` of the arrays, so a point's update subtracts that tile's sum of row terms, and the chain of updates is
  `Cert.Loss.acc`.
-/
import proofs.«407716_j68401649156201_1_alg».proof.Proof.KFinal
import proofs.«407716_j68401649156201_1_alg».proof.Proof.KPay

noncomputable section

open Idealize.ShloMosaic Idealize.ShloMosaic.TcCoe Idealize.SL.Sem Idealize.ShloMosaic.ValueIdx

namespace Cert.KernelIdeal.Value

open Cert.KernelIdeal Cert.KernelIdeal.Gen Cert.KernelIdeal.Pieces Cert.KernelIdeal.Blocks Cert.KernelIdeal.Accum Cert.KernelIdeal.Final Cert.KernelIdeal.Pay

variable (m : (ℓ : Loc nD τ sig) → Buf (Elt Ideal) ℓ) (ρ : Dev nD → PrngReg)

/-- The result on core `c`. -/
def result (c : Dev nD) : EReal :=
  Cert.Loss.tiled (Cert.Loss.f1 (m ((c.tc : Thread nD τ).loc main_arg0)) (m ((c.tc : Thread nD τ).loc main_arg1)) (valtagK (F := Ideal) (m ((c.tc : Thread nD τ).loc main_arg1)) (m ((c.tc : Thread nD τ).loc main_arg2))) (m ((c.tc : Thread nD τ).loc main_arg3)) (m ((c.tc : Thread nD τ).loc main_arg4)))
    (Cert.Loss.f2 (m ((c.tc : Thread nD τ).loc main_arg0)) (m ((c.tc : Thread nD τ).loc main_arg3)) (m ((c.tc : Thread nD τ).loc main_arg4)))

/-- The logits of row `r` of the blocks at point `t` are those of flat row `2048 t + r`. -/
theorem lg_eq (c : Dev nD) (t : Fin cfg0.N) (r : Fin 2048) :
    lgBlk (blk0 m c t) (blk1 m c t) (blk2 m c t) r
      = Cert.Loss.lgAt (m ((c.tc : Thread nD τ).loc main_arg0)) (m ((c.tc : Thread nD τ).loc main_arg3)) (m ((c.tc : Thread nD τ).loc main_arg4)) (Cert.Loss.rowB (Cert.Loss.tileRow (tile t) r)) (Cert.Loss.rowS (Cert.Loss.tileRow (tile t) r)) := by
  funext u
  unfold lgBlk Cert.Loss.lgAt Cert.Loss.logits
  dsimp only
  rw [blk2_apply m c t u]
  refine congrArg (· + _) (Finset.sum_congr rfl fun k _ => ?_)
  rw [blk0_apply m c t r k, blk1_apply m c t k u]

/-- Its target scores likewise. -/
theorem ys_eq (c : Dev nD) (t : Fin cfg0.N) (r : Fin 2048) :
    ysBlk (blk3 m c t) (blk4 m c t) r
      = Cert.Loss.ysAt (m ((c.tc : Thread nD τ).loc main_arg1)) (valtagK (F := Ideal) (m ((c.tc : Thread nD τ).loc main_arg1)) (m ((c.tc : Thread nD τ).loc main_arg2))) (Cert.Loss.rowB (Cert.Loss.tileRow (tile t) r)) (Cert.Loss.rowS (Cert.Loss.tileRow (tile t) r)) := by
  unfold ysBlk Cert.Loss.ysAt
  rw [blk3_apply m c t r]
  exact congrArg (Cert.Loss.scores _) (funext fun u => blk4_apply m c t u)

/-- A point's first update subtracts its tile's sum of the first row terms. -/
theorem step1_eq (c : Dev nD) (t : Fin cfg0.N) (a : FVec Ideal S1x1 .f32) :
    step1 (F := Ideal) a (blk0 m c t) (blk1 m c t) (blk2 m c t) (blk3 m c t) (blk4 m c t)
      = fun _ => a (ix2 (0 : Fin 1) (0 : Fin 1)) + (0 - Cert.Loss.tileSum (Cert.Loss.f1 (m ((c.tc : Thread nD τ).loc main_arg0)) (m ((c.tc : Thread nD τ).loc main_arg1)) (valtagK (F := Ideal) (m ((c.tc : Thread nD τ).loc main_arg1)) (m ((c.tc : Thread nD τ).loc main_arg2))) (m ((c.tc : Thread nD τ).loc main_arg3)) (m ((c.tc : Thread nD τ).loc main_arg4))) (tile t)) := by
  unfold step1
  rw [pay1_eq]
  funext _
  refine congrArg (fun z => a (ix2 (0 : Fin 1) (0 : Fin 1)) + (0 - z)) (Finset.sum_congr rfl fun r _ => ?_)
  rw [lg_eq m c t r, ys_eq m c t r]
  rfl

/-- And its second update that of the second row terms. -/
theorem step2_eq (c : Dev nD) (t : Fin cfg0.N) (a : FVec Ideal S1x1 .f32) :
    step2 (F := Ideal) a (blk0 m c t) (blk1 m c t) (blk2 m c t) (blk3 m c t) (blk4 m c t)
      = fun _ => a (ix2 (0 : Fin 1) (0 : Fin 1)) + (0 - Cert.Loss.tileSum (Cert.Loss.f2 (m ((c.tc : Thread nD τ).loc main_arg0)) (m ((c.tc : Thread nD τ).loc main_arg3)) (m ((c.tc : Thread nD τ).loc main_arg4))) (tile t)) := by
  unfold step2
  rw [pay2_eq]
  funext _
  refine congrArg (fun z => a (ix2 (0 : Fin 1) (0 : Fin 1)) + (0 - z)) (Finset.sum_congr rfl fun r _ => ?_)
  rw [lg_eq m c t r]
  rfl

/-- The first accumulator after point `n` is the running form of the first loss. -/
theorem chain1_eq (c : Dev nD) : ∀ (n : ℕ) (h : n < cfg0.N) (h8 : n < 8),
    chain1 (F := Ideal) m c n h = fun _ => Cert.Loss.acc (Cert.Loss.f1 (m ((c.tc : Thread nD τ).loc main_arg0)) (m ((c.tc : Thread nD τ).loc main_arg1)) (valtagK (F := Ideal) (m ((c.tc : Thread nD τ).loc main_arg1)) (m ((c.tc : Thread nD τ).loc main_arg2))) (m ((c.tc : Thread nD τ).loc main_arg3)) (m ((c.tc : Thread nD τ).loc main_arg4))) n h8
  | 0, h, h8 => by
    unfold chain1
    rw [step1_eq m c ⟨0, h⟩ (clear1 (F := Ideal))]
    funext _
    show clear1 (F := Ideal) (ix2 (0 : Fin 1) (0 : Fin 1)) + _ = _
    unfold clear1
    rw [pay3_eq]
    rfl
  | n + 1, h, h8 => by
    unfold chain1
    rw [step1_eq m c ⟨n + 1, h⟩ (chain1 m c n (Nat.lt_of_succ_lt h)), chain1_eq c n (Nat.lt_of_succ_lt h) (Nat.lt_of_succ_lt h8)]
    rfl

/-- The second likewise. -/
theorem chain2_eq (c : Dev nD) : ∀ (n : ℕ) (h : n < cfg0.N) (h8 : n < 8),
    chain2 (F := Ideal) m c n h = fun _ => Cert.Loss.acc (Cert.Loss.f2 (m ((c.tc : Thread nD τ).loc main_arg0)) (m ((c.tc : Thread nD τ).loc main_arg3)) (m ((c.tc : Thread nD τ).loc main_arg4))) n h8
  | 0, h, h8 => by
    unfold chain2
    rw [step2_eq m c ⟨0, h⟩ (clear2 (F := Ideal))]
    funext _
    show clear2 (F := Ideal) (ix2 (0 : Fin 1) (0 : Fin 1)) + _ = _
    unfold clear2
    rw [pay4_eq]
    rfl
  | n + 1, h, h8 => by
    unfold chain2
    rw [step2_eq m c ⟨n + 1, h⟩ (chain2 m c n (Nat.lt_of_succ_lt h)), chain2_eq c n (Nat.lt_of_succ_lt h) (Nat.lt_of_succ_lt h8)]
    rfl

/-- The operations after the launch, on the two accumulators: the tile-by-tile form. -/
theorem tail_eq (c : Dev nD) (h7 : 7 < cfg0.N) :
    tailK (F := Ideal) (chain1 m c 7 h7) (chain2 m c 7 h7) = fun _ => result m c := by
  rw [chain1_eq m c 7 h7 (by decide), chain2_eq m c 7 h7 (by decide)]
  rfl

theorem run : θ_run defs (onTc (τ := τ) (main (F := Ideal))) ⟨m, fun _ => 0, ρ⟩ (fun r => ∀ c : Dev nD,
      r.2.mem ((c.tc : Thread nD τ).loc main_v28) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (tail_eq m c (by rw [show cfg0.N = 8 from N_0]; decide)), (h c).2⟩)
    (run_value (F := Ideal) m ρ (by rw [show cfg0.N = 8 from N_0]; decide))

end Cert.KernelIdeal.Value

end
-- ==== Proof.RefLogits.lean ====
/-
  The reference's prediction side, read entry by entry: at (b, s, t) its probabilities are the softmax of row
  (b, s)'s logits `∑ k, x b s k · W k t + b t` at t (the host's row maximum is the fold of `max` from −∞ over the row,
  its row sum the sum from zero), and its smoothed log-probabilities the logarithm of probability plus ε.
-/
import proofs.«407716_j68401649156201_1_alg».proof.Proof.Gen.ReferenceIdeal.Read
import proofs.«407716_j68401649156201_1_alg».proof.Proof.Spec
import Idealize.ShloMosaic.Lib.ValueIdx
import Idealize.ShloMosaic.Lib.ValueLayout
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-! ## The index maps of the stages, at explicit coordinates -/

private theorem lidx_eq (b : Fin 32) (s : Fin 512) (t : Fin 50) (k : Fin 1536) :
    lidx_main_v0 (ix3 b s t) k = ix3 b s k :=
  funext fun a => Fin.ext (by match a with | ⟨0, _⟩ => rfl | ⟨1, _⟩ => rfl | ⟨2, _⟩ => rfl)

private theorem ridx_eq (b : Fin 32) (s : Fin 512) (t : Fin 50) (k : Fin 1536) :
    ridx_main_v0 (ix3 b s t) k = ix2 k t :=
  funext fun a => Fin.ext (by match a with | ⟨0, _⟩ => rfl | ⟨1, _⟩ => rfl)

private theorem bias_idx_eq (b : Fin 32) (s : Fin 512) (t : Fin 50) :
    idx_main_v1 (idx_main_v2 (ix3 b s t)) = ix1 t :=
  funext fun a => Fin.ext (by match a with | ⟨0, _⟩ => rfl)

private theorem col_idx7_eq (b : Fin 32) (s : Fin 512) (t : Fin 50) :
    idx_main_v7 (idx_main_v8 (ix3 b s t)) = ix2 b s :=
  funext fun a => Fin.ext (by match a with | ⟨0, _⟩ => rfl | ⟨1, _⟩ => rfl)

private theorem col_idx12_eq (b : Fin 32) (s : Fin 512) (t : Fin 50) :
    idx_main_v12 (idx_main_v13 (ix3 b s t)) = ix2 b s :=
  funext fun a => Fin.ext (by match a with | ⟨0, _⟩ => rfl | ⟨1, _⟩ => rfl)

private theorem row_idx11_eq (b : Fin 32) (s : Fin 512) (u : Fin 50) :
    idx_main_v11 (ix2 b s) u = ix3 b s u :=
  funext fun a => Fin.ext (by match a with | ⟨0, _⟩ => rfl | ⟨1, _⟩ => rfl | ⟨2, _⟩ => rfl)

/-! ## The stages -/

/-- The logits (the reference's `%3`): the contraction of row (b, s) of x against column t of W, plus the bias at t. -/
private theorem logit_apply (x0 : FVec Ideal S32x512x1536 .f32) (x3 : FVec Ideal S1536x50 .f32) (x4 : FVec Ideal S50 .f32)
    (b : Fin 32) (s : Fin 512) (t : Fin 50) :
    val_main_v3 (F := Ideal) x0 x3 x4 (ix3 b s t) = Cert.Loss.lgAt x0 x3 x4 b s t := by
  rw [val_main_v3_apply, val_main_v0_apply, val_main_v2_apply, val_main_v1_apply, bias_idx_eq]
  simp only [lidx_eq, ridx_eq]
  rfl

/-- The row maximum (the reference's `%6`): the fold of `max` from −∞ over row (b, s)'s logits, joined once more with −∞. -/
private theorem rowmax_apply (x0 : FVec Ideal S32x512x1536 .f32) (x3 : FVec Ideal S1536x50 .f32) (x4 : FVec Ideal S50 .f32)
    (b : Fin 32) (s : Fin 512) :
    val_main_v6 (F := Ideal) x0 x3 x4 (ix2 b s) = Cert.Loss.rmax (Cert.Loss.lgAt x0 x3 x4 b s) := by
  have h : S32x512x50.Reduces [2] S32x512 := by decide
  rw [val_main_v6_apply, val_main_v5_apply, val_main_cst_0_apply]
  unfold val_main_v4
  rw [Host.reduce_eq_fold_single FloatOps.maximumf _ _ reducesTo_S32x512x50_S32x512_d2 h h_S_, val_main_cst_apply]
  have hf : (val_main_v3 (F := Ideal) x0 x3 x4 ∘ h.lift (ix2 b s)) = Cert.Loss.lgAt x0 x3 x4 b s :=
    funext fun t => (congrArg (val_main_v3 (F := Ideal) x0 x3 x4)
      (funext fun a => Fin.ext (by match a with | ⟨0, _⟩ => rfl | ⟨1, _⟩ => rfl | ⟨2, _⟩ => rfl))).trans
      (logit_apply x0 x3 x4 b s t)
  rw [hf]
  rfl

/-- The shifted exponentials (the reference's `%10`). -/
private theorem exp_apply (x0 : FVec Ideal S32x512x1536 .f32) (x3 : FVec Ideal S1536x50 .f32) (x4 : FVec Ideal S50 .f32)
    (b : Fin 32) (s : Fin 512) (t : Fin 50) :
    val_main_v10 (F := Ideal) x0 x3 x4 (ix3 b s t)
      = Ideal.exp (Cert.Loss.lgAt x0 x3 x4 b s t - Cert.Loss.rmax (Cert.Loss.lgAt x0 x3 x4 b s)) := by
  rw [val_main_v10_apply, val_main_v9_apply, val_main_v8_apply, val_main_v7_apply, logit_apply, col_idx7_eq,
    rowmax_apply]
  rfl

/-- The row sum of the exponentials (the reference's `%11`): the sum from zero over the row. -/
private theorem sum_apply (x0 : FVec Ideal S32x512x1536 .f32) (x3 : FVec Ideal S1536x50 .f32) (x4 : FVec Ideal S50 .f32)
    (b : Fin 32) (s : Fin 512) :
    val_main_v11 (F := Ideal) x0 x3 x4 (ix2 b s)
      = ∑ u : Fin 50, Ideal.exp (Cert.Loss.lgAt x0 x3 x4 b s u - Cert.Loss.rmax (Cert.Loss.lgAt x0 x3 x4 b s)) := by
  rw [val_main_v11_apply, val_main_cst_1_apply]
  refine (congrArg (· + _) Ideal.ofBits_zero_f32).trans ((zero_add _).trans ?_)
  refine Finset.sum_congr rfl fun u _ => ?_
  rw [row_idx11_eq, exp_apply]

/-- The probabilities (the reference's `%14`). -/
theorem p_apply (x0 : FVec Ideal S32x512x1536 .f32) (x3 : FVec Ideal S1536x50 .f32) (x4 : FVec Ideal S50 .f32)
    (b : Fin 32) (s : Fin 512) (t : Fin 50) :
    val_main_v14 (F := Ideal) x0 x3 x4 (ix3 b s t) = Cert.Loss.sm (Cert.Loss.lgAt x0 x3 x4 b s) t := by
  rw [val_main_v14_apply, val_main_v13_apply, val_main_v12_apply, exp_apply, col_idx12_eq, sum_apply]
  rfl

/-- The smoothed log-probabilities (the reference's `%67`). -/
theorem lp_apply (x0 : FVec Ideal S32x512x1536 .f32) (x3 : FVec Ideal S1536x50 .f32) (x4 : FVec Ideal S50 .f32)
    (b : Fin 32) (s : Fin 512) (t : Fin 50) :
    val_main_v67 (F := Ideal) x0 x3 x4 (ix3 b s t) = Cert.Loss.lp (Cert.Loss.lgAt x0 x3 x4 b s) t := by
  rw [val_main_v67_apply, val_main_v66_apply, val_main_v65_apply, val_main_cst_16_apply, p_apply]
  rfl

end Cert.ReferenceIdeal.RefValue

end
-- ==== Proof.RefTarget.lean ====
/-
  The reference's target side, read entry by entry. The reference gathers each row's score and exponent by the
  row's tag before raising to the power; where the one-hot test selects position t the tag IS t (a word between 0
  and 49: the wrap of negative indices leaves it alone and the gather's clamp does nothing), so the gathered power is
  entry t of the per-tag powers, and elsewhere the fill value is taken whatever was gathered. The targets are the
  softmax of each row of scores.
-/
import proofs.«407716_j68401649156201_1_alg».proof.Proof.Gen.ReferenceIdeal.Read
import proofs.«407716_j68401649156201_1_alg».proof.Proof.Spec
import Idealize.ShloMosaic.Lib.ValueIdx
import Idealize.ShloMosaic.Lib.ValueLayout
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The per-tag powers: each tag's score to one minus the tag's count over the sequence length. -/
def valtagR (x1 : IVec S32x512 32) (x2 : FVec Ideal S50 .f32) : FVec Ideal S50 .f32 :=
  Host.powf x2 (val_main_v30 (F := Ideal) x1)

/-! ## Where each broadcast reads: the index maps composed, at an index given by its coordinates -/

/-- The tag compared at (b, s, t) is row (b, s)'s. -/
private theorem idx_tag (b : Fin 32) (s : Fin 512) (t : Fin 50) : idx_main_v46 (idx_main_v49 (ix3 b s t)) = ix2 b s := by
  funext a; match a with | ⟨0, _⟩ => rfl | ⟨1, _⟩ => rfl

/-- The power selected at (b, s, t) is row (b, s)'s. -/
private theorem idx_pow (b : Fin 32) (s : Fin 512) (t : Fin 50) : idx_main_v52 (idx_main_call1_v0 (ix3 b s t)) = ix2 b s := by
  funext a; match a with | ⟨0, _⟩ => rfl | ⟨1, _⟩ => rfl

/-- The start index (b, s, 0) of the first gather is row (b, s)'s wrapped tag … -/
private theorem idx_start36 (b : Fin 32) (s : Fin 512) : idx_main_v36 (ix3 b s (0 : Fin 1)) = ix2 b s := by
  funext a; match a with | ⟨0, _⟩ => rfl | ⟨1, _⟩ => rfl

/-- … and so is the second gather's. -/
private theorem idx_start43 (b : Fin 32) (s : Fin 512) : idx_main_v43 (ix3 b s (0 : Fin 1)) = ix2 b s := by
  funext a; match a with | ⟨0, _⟩ => rfl | ⟨1, _⟩ => rfl

/-- The row maximum subtracted at (b, s, k) is row (b, s)'s. -/
private theorem idx_max (b : Fin 32) (s : Fin 512) (k : Fin 50) : idx_main_v57 (idx_main_v58 (ix3 b s k)) = ix2 b s := by
  funext a; match a with | ⟨0, _⟩ => rfl | ⟨1, _⟩ => rfl

/-- The row sum divided by at (b, s, k) is row (b, s)'s. -/
private theorem idx_sum (b : Fin 32) (s : Fin 512) (k : Fin 50) : idx_main_v62 (idx_main_v63 (ix3 b s k)) = ix2 b s := by
  funext a; match a with | ⟨0, _⟩ => rfl | ⟨1, _⟩ => rfl

/-- Term k of row (b, s)'s sum is entry (b, s, k). -/
private theorem idx_term (b : Fin 32) (s : Fin 512) (k : Fin 50) : idx_main_v61 (ix2 b s) k = ix3 b s k := by
  funext a; match a with | ⟨0, _⟩ => rfl | ⟨1, _⟩ => rfl | ⟨2, _⟩ => rfl

/-- The gather's start-index position for result (b, s) is (b, s, 0). -/
private theorem take_idx (b : Fin 32) (s : Fin 512) : takeIdx (ix2 b s) = ix3 b s (0 : Fin 1) := by
  funext a; match a with | ⟨0, _⟩ => rfl | ⟨1, _⟩ => rfl | ⟨2, _⟩ => rfl

/-! ## The one-hot test, and the gathers where it holds -/

/-- The one-hot test at (b, s, t) compares row (b, s)'s tag word with the word t. -/
private theorem cond_apply (x1 : IVec S32x512 32) (b : Fin 32) (s : Fin 512) (t : Fin 50) :
    val_main_v51 (F := Ideal) x1 (ix3 b s t) = IntOp.cmpi .eq (x1 (ix2 b s)) (BitVec.ofNat 32 t.val) := by
  rw [val_main_v51_apply, val_main_v49_apply, val_main_v46_apply, val_main_v50_apply, val_main_v48_apply, val_main_v47_apply,
    idx_tag]

/-- A word that names a position below 50 is not negative as a signed number, so the wrap of negative indices (add 50
    when below zero) leaves it alone. -/
private theorem wrap_small (w : BitVec 32) (t : Fin 50) (h : w = BitVec.ofNat 32 t.val) :
    Scalar.select (IntOp.cmpi .slt w 0#32) (IntOp.addi w 50#32) w = w := by
  have ht := t.isLt
  have hw : w.toNat < 2 ^ 31 := by rw [h, BitVec.toNat_ofNat]; omega
  have h0 : ¬ IntOp.cmpi .slt w 0#32 = 1#1 := by
    rw [StableHlo.Predicate.slt_iff_toNat hw (by decide)]
    simp
  rw [eq_zero_of_ne_one h0, select_zero]

/-- The gather of a 50-entry operand at a start index that is the word t, t below 50: read signed the word is t, the
    clamp into [0, 49] does nothing, so the result is the operand's entry t. -/
private theorem gather_at {α : Type} (y : S50.Idx → α) (I : IVec S32x512x1 32) (b : Fin 32) (s : Fin 512) (t : Fin 50)
    (h : I (ix3 b s (0 : Fin 1)) = BitVec.ofNat 32 t.val) :
    Host.gather gather_S50_S32x512x1_S32x512_n_0_n_n_0_2_1 y I (ix2 b s) = y (ix1 t) := by
  have e := gather_take_apply (N := 50) (R := 32) (C := 512) (by decide)
    gather_S50_S32x512x1_S32x512_n_0_n_n_0_2_1_wf y I (ix2 b s)
  refine Eq.trans ?_ (e.trans (congrArg y (congrArg ix1 (Fin.ext ?_))))
  · rfl
  · show min (I (takeIdx (ix2 b s))).toInt.toNat (50 - 1) = t.val
    rw [take_idx, h, StableHlo.Predicate.toInt_ofNat_small t.val (by have := t.isLt; omega), Int.toNat_natCast]
    have := t.isLt; omega

/-- In a row whose tag is the word t, the first gather's start index is that word … -/
private theorem start36 (x1 : IVec S32x512 32) (b : Fin 32) (s : Fin 512) (t : Fin 50)
    (h : x1 (ix2 b s) = BitVec.ofNat 32 t.val) :
    val_main_v36 (F := Ideal) x1 (ix3 b s (0 : Fin 1)) = BitVec.ofNat 32 t.val := by
  rw [val_main_v36_apply, idx_start36, val_main_v35_apply, val_main_v32_apply, val_main_v34_apply, val_main_v31_apply,
    val_main_v33_apply, val_main_c_8_apply, val_main_c_9_apply]
  exact (wrap_small _ t h).trans h

/-- … and so is the second gather's. -/
private theorem start43 (x1 : IVec S32x512 32) (b : Fin 32) (s : Fin 512) (t : Fin 50)
    (h : x1 (ix2 b s) = BitVec.ofNat 32 t.val) :
    val_main_v43 (F := Ideal) x1 (ix3 b s (0 : Fin 1)) = BitVec.ofNat 32 t.val := by
  rw [val_main_v43_apply, idx_start43, val_main_v42_apply, val_main_v39_apply, val_main_v41_apply, val_main_v38_apply,
    val_main_v40_apply, val_main_c_10_apply, val_main_c_11_apply]
  exact (wrap_small _ t h).trans h

/-- So in such a row the gathered score to the gathered exponent is entry t of the per-tag powers. -/
private theorem pow_at (x1 : IVec S32x512 32) (x2 : FVec Ideal S50 .f32) (b : Fin 32) (s : Fin 512) (t : Fin 50)
    (h : x1 (ix2 b s) = BitVec.ofNat 32 t.val) :
    val_main_v45 (F := Ideal) x1 x2 (ix2 b s) = valtagR x1 x2 (ix1 t) := by
  rw [val_main_v45_apply]
  unfold val_main_v37 val_main_v44 valtagR
  rw [gather_at _ _ b s t (start36 x1 b s t h), gather_at _ _ b s t (start43 x1 b s t h)]
  rfl

/-- The target scores (the reference's `%53`). -/
theorem ys_apply (x1 : IVec S32x512 32) (x2 : FVec Ideal S50 .f32) (b : Fin 32) (s : Fin 512) (t : Fin 50) :
    val_main_v53 (F := Ideal) x1 x2 (ix3 b s t) = Cert.Loss.ysAt x1 (valtagR x1 x2) b s t := by
  rw [val_main_v53_apply, cond_apply, val_main_call1_v1_apply, val_main_cst_12_apply, val_main_call1_v0_apply,
    val_main_v52_apply, idx_pow]
  unfold Cert.Loss.ysAt Cert.Loss.scores
  by_cases h : x1 (ix2 b s) = BitVec.ofNat 32 t.val
  · -- the tag is t: the test holds and the row's power, which is entry t of the per-tag powers, is taken
    rw [if_pos h, StableHlo.Predicate.cmpi_eq_iff.mpr h, select_one, pow_at x1 x2 b s t h]
  · -- the tag is not t: the test fails and the fill value is taken, the same constant on both sides
    rw [if_neg h, eq_zero_of_ne_one (fun hc => h (StableHlo.Predicate.cmpi_eq_iff.mp hc)), select_zero]
    rfl

/-! ## The softmax of a row of scores: maximum, exponentials, sum, quotient -/

/-- Dropping the last axis of [32, 512, 50] leaves [32, 512]. -/
private theorem red : S32x512x50.Reduces [2] S32x512 := by decide

/-- Row (b, s) with k put back on the dropped axis is (b, s, k). -/
private theorem lift_idx (b : Fin 32) (s : Fin 512) (k : Fin (S32x512x50.size 2)) :
    red.lift (ix2 b s) k = ix3 b s (⟨k.val, k.isLt⟩ : Fin 50) := by
  funext c; apply Fin.ext
  match c with | ⟨0, _⟩ => rfl | ⟨1, _⟩ => rfl | ⟨2, _⟩ => rfl

/-- The row maximum: the fold of the maximum from −∞ over the row's 50 scores, joined once more with −∞. -/
private theorem rowmax_apply (x1 : IVec S32x512 32) (x2 : FVec Ideal S50 .f32) (b : Fin 32) (s : Fin 512) :
    val_main_v56 (F := Ideal) x1 x2 (ix2 b s) = Cert.Loss.rmax (Cert.Loss.ysAt x1 (valtagR x1 x2) b s) := by
  rw [val_main_v56_apply, val_main_v55_apply, val_main_cst_14_apply]
  unfold val_main_v54 Cert.Loss.rmax
  rw [Host.reduce_eq_fold_single FloatOps.maximumf _ _ reducesTo_S32x512x50_S32x512_d2 red h_S_, val_main_cst_13_apply]
  have hf : (val_main_v53 (F := Ideal) x1 x2 ∘ red.lift (ix2 b s))
      = fun k : Fin 50 => Cert.Loss.ysAt x1 (valtagR x1 x2) b s k :=
    funext fun k => by
      show val_main_v53 (F := Ideal) x1 x2 (red.lift (ix2 b s) k) = _
      rw [lift_idx]; exact ys_apply x1 x2 b s _
  rw [hf]
  rfl

/-- The exponential of a score's distance to its row's maximum. -/
private theorem exp_apply (x1 : IVec S32x512 32) (x2 : FVec Ideal S50 .f32) (b : Fin 32) (s : Fin 512) (k : Fin 50) :
    val_main_v60 (F := Ideal) x1 x2 (ix3 b s k)
      = Ideal.exp (Cert.Loss.ysAt x1 (valtagR x1 x2) b s k - Cert.Loss.rmax (Cert.Loss.ysAt x1 (valtagR x1 x2) b s)) := by
  rw [val_main_v60_apply, val_main_v59_apply, val_main_v58_apply, val_main_v57_apply, idx_max, rowmax_apply, ys_apply]
  rfl

/-- The targets (the reference's `%64`). -/
theorem tgt_apply (x1 : IVec S32x512 32) (x2 : FVec Ideal S50 .f32) (b : Fin 32) (s : Fin 512) (t : Fin 50) :
    val_main_v64 (F := Ideal) x1 x2 (ix3 b s t) = Cert.Loss.sm (Cert.Loss.ysAt x1 (valtagR x1 x2) b s) t := by
  rw [val_main_v64_apply, val_main_v63_apply, val_main_v62_apply, idx_sum, val_main_v61_apply, val_main_cst_15_apply,
    exp_apply]
  unfold Cert.Loss.sm
  -- the row sum starts from zero, which adds nothing; its terms are the row's exponentials
  rw [Ideal.hostDivf_def, Ideal.ofBits_def, Ideal.ofBits_zero_f32, zero_add]
  refine congrArg (Ideal.div _) (Finset.sum_congr rfl fun k _ => ?_)
  rw [idx_term, exp_apply]

/-- With real scores the per-tag powers are real: a count is a whole number, 512 is not zero, and a real to a real power is real. -/
theorem valtagR_real (x1 : IVec S32x512 32) (x2 : FVec Ideal S50 .f32) (h2 : ∀ i, ∃ r : ℝ, x2 i = (r : EReal)) :
    ∀ i, ∃ r : ℝ, valtagR x1 x2 i = (r : EReal) := by
  intro i
  obtain ⟨r, hr⟩ := h2 i
  -- the exponent: one minus the count (an integer, read as a real) times the reciprocal of 512
  have hy : ∃ y : ℝ, val_main_v30 (F := Ideal) x1 i = (y : EReal) := by
    refine ⟨1 - ((val_main_v25 (F := Ideal) x1 i).toInt : ℝ) * (1 / 512), ?_⟩
    have h1 : Ideal.ofBits .f32 0x3F800000#32 = ((1 : ℝ) : EReal) := by
      have := Cert.Loss.one_eq; unfold Cert.Loss.one at this; rw [this, EReal.coe_one]
    rw [val_main_v30_apply, val_main_v29_apply, val_main_cst_7_apply, val_main_v28_apply, val_main_v27_apply,
      val_main_cst_6_apply, val_main_v26_apply]
    show Ideal.ofBits .f32 0x3F800000#32
        - Ideal.div (((val_main_v25 (F := Ideal) x1 i).toInt : ℝ) : EReal) (Ideal.ofBits .f32 0x44000000#32) = _
    rw [h1, Cert.Loss.ofBits_512, Ideal.div_coe (by norm_num : (512 : ℝ) ≠ 0), ← EReal.coe_mul, ← EReal.coe_sub]
  obtain ⟨y, hy⟩ := hy
  refine ⟨Real.rpow r y, ?_⟩
  show Ideal.pow (x2 i) (val_main_v30 (F := Ideal) x1 i) = _
  rw [hr, hy, Ideal.pow_coe_coe]

end Cert.ReferenceIdeal.RefValue

end
-- ==== Proof.RefValue.lean ====
/-
  The idealized reference's result as one extended real of the argument arrays: the all-at-once form of the two
  losses (`Cert.Loss.whole`) over the row terms of the arrays — each row's products summed over the positions from
  zero, the rows summed from zero, divided by the number of rows, negated, weighted, added.
-/
import proofs.«407716_j68401649156201_1_alg».proof.Proof.RefLogits
import proofs.«407716_j68401649156201_1_alg».proof.Proof.RefTarget

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The entries of row (b, s) that the sum over the positions runs through. -/
private theorem idx69_ix (b : Fin 32) (s : Fin 512) (k : Fin 50) : idx_main_v69 (ix2 b s) k = ix3 b s k := by
  funext a; match a with | ⟨0, _⟩ => rfl | ⟨1, _⟩ => rfl | ⟨2, _⟩ => rfl

private theorem idx74_ix (b : Fin 32) (s : Fin 512) (k : Fin 50) : idx_main_v74 (ix2 b s) k = ix3 b s k := by
  funext a; match a with | ⟨0, _⟩ => rfl | ⟨1, _⟩ => rfl | ⟨2, _⟩ => rfl

/-- Row (b, s) of the first loss: from zero, the row's targets times its smoothed log-probabilities, summed over
    the positions — the row term `g1`. -/
private theorem row1_apply (x0 : FVec Ideal S32x512x1536 .f32) (x1 : IVec S32x512 32) (x2 : FVec Ideal S50 .f32)
    (x3 : FVec Ideal S1536x50 .f32) (x4 : FVec Ideal S50 .f32) (b : Fin 32) (s : Fin 512) :
    val_main_v69 (F := Ideal) x0 x1 x2 x3 x4 (ix2 b s)
      = 0 + Cert.Loss.g1 x0 x1 (valtagR x1 x2) x3 x4 b s := by
  refine (val_main_v69_apply x0 x1 x2 x3 x4 (ix2 b s)).trans ?_
  have h0 : val_main_cst_17 (F := Ideal) (Shape.Idx.first h_S_) = 0 := by
    rw [val_main_cst_17_apply, Ideal.ofBits_def, Ideal.ofBits_zero_f32]
  rw [h0]
  refine congrArg (0 + ·) ?_
  unfold Cert.Loss.g1 Cert.Loss.row1
  refine Finset.sum_congr rfl fun t _ => ?_
  rw [idx69_ix, val_main_v68_apply, Ideal.mulf_def, tgt_apply, lp_apply]

/-- Row (b, s) of the second loss: the same sum with the row's own probabilities as weights — the row term `g2`. -/
private theorem row2_apply (x0 : FVec Ideal S32x512x1536 .f32) (x3 : FVec Ideal S1536x50 .f32)
    (x4 : FVec Ideal S50 .f32) (b : Fin 32) (s : Fin 512) :
    val_main_v74 (F := Ideal) x0 x3 x4 (ix2 b s) = 0 + Cert.Loss.g2 x0 x3 x4 b s := by
  refine (val_main_v74_apply x0 x3 x4 (ix2 b s)).trans ?_
  have h0 : val_main_cst_20 (F := Ideal) (Shape.Idx.first h_S_) = 0 := by
    rw [val_main_cst_20_apply, Ideal.ofBits_def, Ideal.ofBits_zero_f32]
  rw [h0]
  refine congrArg (0 + ·) ?_
  unfold Cert.Loss.g2 Cert.Loss.row2
  refine Finset.sum_congr rfl fun t _ => ?_
  rw [idx74_ix, val_main_v73_apply, Ideal.mulf_def, p_apply, lp_apply]

/-- The rows of the first loss summed from zero: a sum over the rank-2 index set is the sum over the pairs of
    coordinates. -/
private theorem sum1_apply (x0 : FVec Ideal S32x512x1536 .f32) (x1 : IVec S32x512 32) (x2 : FVec Ideal S50 .f32)
    (x3 : FVec Ideal S1536x50 .f32) (x4 : FVec Ideal S50 .f32) (i : S_.Idx) :
    val_main_v70 (F := Ideal) x0 x1 x2 x3 x4 i
      = 0 + ∑ p : Fin 32 × Fin 512, (0 + Cert.Loss.g1 x0 x1 (valtagR x1 x2) x3 x4 p.1 p.2) := by
  refine (val_main_v70_apply x0 x1 x2 x3 x4 i).trans ?_
  have h0 : val_main_cst_18 (F := Ideal) (Shape.Idx.first h_S_) = 0 := by
    rw [val_main_cst_18_apply, Ideal.ofBits_def, Ideal.ofBits_zero_f32]
  rw [h0]
  refine congrArg (0 + ·) ?_
  refine (Equiv.sum_comp (idxEquiv2 (n0 := 32) (n1 := 512)).symm _).symm.trans ?_
  exact Finset.sum_congr rfl fun p _ => row1_apply x0 x1 x2 x3 x4 p.1 p.2

private theorem sum2_apply (x0 : FVec Ideal S32x512x1536 .f32) (x3 : FVec Ideal S1536x50 .f32)
    (x4 : FVec Ideal S50 .f32) (i : S_.Idx) :
    val_main_v75 (F := Ideal) x0 x3 x4 i
      = 0 + ∑ p : Fin 32 × Fin 512, (0 + Cert.Loss.g2 x0 x3 x4 p.1 p.2) := by
  refine (val_main_v75_apply x0 x3 x4 i).trans ?_
  have h0 : val_main_cst_21 (F := Ideal) (Shape.Idx.first h_S_) = 0 := by
    rw [val_main_cst_21_apply, Ideal.ofBits_def, Ideal.ofBits_zero_f32]
  rw [h0]
  refine congrArg (0 + ·) ?_
  refine (Equiv.sum_comp (idxEquiv2 (n0 := 32) (n1 := 512)).symm _).symm.trans ?_
  exact Finset.sum_congr rfl fun p _ => row2_apply x0 x3 x4 p.1 p.2

/-- The result: each loss's rows summed, divided by the number of rows and negated; the two weighted and added. The
    divisor and the two weights are the specification's constants by definition. -/
theorem ref_eq (x0 : FVec Ideal S32x512x1536 .f32) (x1 : IVec S32x512 32) (x2 : FVec Ideal S50 .f32)
    (x3 : FVec Ideal S1536x50 .f32) (x4 : FVec Ideal S50 .f32) :
    val_main_v80 (F := Ideal) x0 x1 x2 x3 x4
      = fun _ => Cert.Loss.whole (Cert.Loss.g1 x0 x1 (valtagR x1 x2) x3 x4) (Cert.Loss.g2 x0 x3 x4) := by
  funext i
  rw [val_main_v80_apply, val_main_v78_apply, val_main_v79_apply, val_main_v72_apply, val_main_v77_apply,
    val_main_v71_apply, val_main_v76_apply, sum1_apply, sum2_apply]
  rfl

end Cert.ReferenceIdeal.RefValue

end
-- ==== Proof.Finite.lean ====
/-
  What the precondition says: every entry of the four float arguments is a real number. The precondition takes
  the absolute value of each entry, compares it with +∞, and joins all the comparisons; an extended real whose
  absolute value is below +∞ is neither infinity.
-/
import proofs.«407716_j68401649156201_1_alg».proof.Pre_finite_inputs
import proofs.«407716_j68401649156201_1_alg».proof.Proof.Gen.Pre_finite_inputs
import Idealize.ShloMosaic.PureOps.Ideal
import Idealize.ShloMosaic.Lib.ValueIdx
import Idealize.ShloMosaic.Lib.ReduceAll
import Idealize.ShloMosaic.Lib.IdealHost
import Idealize.ShloMosaic.Lib.StableHlo.Predicate

noncomputable section

open Idealize.ShloMosaic Idealize.ShloMosaic.TcCoe Idealize.SL.Sem Idealize.ShloMosaic.ValueIdx

namespace Cert.Pre_finite_inputs.Finite

open Cert.Pre_finite_inputs

/-- An extended real whose absolute value, the larger of itself and its negation, lies below +∞ is a real number:
it is below +∞ itself, and its negation being below +∞ keeps it off −∞. -/
private theorem real_of_abs_lt_top (a : EReal) (h : max a (-a) < ⊤) : ∃ r : ℝ, a = (r : EReal) := by
  obtain ⟨h1, h2⟩ := max_lt_iff.1 h
  have ht : a ≠ ⊤ := ne_of_lt h1
  have hb : a ≠ ⊥ := by
    rintro rfl
    simp at h2
  exact ⟨a.toReal, (EReal.coe_toReal ht hb).symm⟩

/-- The single-precision pattern with every exponent bit set and no fraction bit is +∞. -/
private theorem ofBits_inf : Ideal.ofBits .f32 0x7F800000#32 = (⊤ : EReal) := by
  simp [Ideal.ofBits, Ideal.ieee]

/-- One block of the precondition, at any shape: when the conjunction over all entries of the comparison
|x i| < +∞ holds, every entry of x is a real number. The conjunction being true makes each comparison true;
the broadcast scalar reads +∞ at every index; the absolute value is the larger of the entry and its negation. -/
private theorem real_of_all {S : Shape} {axes : List (Fin S.rank)} (hr : S.ReducesTo axes S_) (hu : 0 < S_.numel)
    (hb : S_.BroadcastsInDim S (![] : Fin 0 → Fin S.rank)) (x : FVec Ideal S .f32)
    (e : Host.reduce IntOp.andi
        (cmpf .olt (Host.absf x) (broadcastInDim S ![] hb (constant (F := Ideal) S_ .f32 0x7F800000#32)))
        (constantI S_ 1 1#1) hr hu ValueIdx.ix0 = 1#1)
    (i : S.Idx) : ∃ r : ℝ, x i = (r : EReal) := by
  haveI : Subsingleton S_.Idx := ⟨fun a b => funext fun d => d.elim0⟩
  have h1 := Host.reduce_andi_all _ _ hr hu _ e i
  have h2 : Ideal.cmp .olt (max (x i) (-(x i))) (Ideal.ofBits .f32 0x7F800000#32) = 1#1 := by
    have hbc := broadcastInDim_scalar_apply hb (constant (F := Ideal) S_ .f32 0x7F800000#32) i
    simpa [cmpf, Host.absf, hbc, constant_apply, Ideal.cmpf_def, Ideal.absf_def] using h1
  rw [ofBits_inf] at h2
  apply real_of_abs_lt_top
  by_contra hn
  simp [Ideal.cmp, hn] at h2

theorem real_of_pre [hP : Cert.Pre_finite_inputs.Facts] (x0 : FVec Ideal S32x512x1536 .f32) (x1 : IVec S32x512 32)
    (x2 : FVec Ideal S50 .f32) (x3 : FVec Ideal S1536x50 .f32) (x4 : FVec Ideal S50 .f32)
    (h : Cert.Pre_finite_inputs.fn (F := Ideal) x0 x1 x2 x3 x4 = fun _ => 1#1) :
    (∀ i, ∃ r : ℝ, x0 i = (r : EReal)) ∧ (∀ i, ∃ r : ℝ, x2 i = (r : EReal))
      ∧ (∀ i, ∃ r : ℝ, x3 i = (r : EReal)) ∧ (∀ i, ∃ r : ℝ, x4 i = (r : EReal)) := by
  -- The precondition is a conjunction of four blocks, one per float argument, nested to the left:
  -- ((block x0 ∧ block x2) ∧ block x3) ∧ block x4. Each conjunct is 1, and each block gives its argument's reals.
  have h0 := congrFun h ValueIdx.ix0
  unfold Cert.Pre_finite_inputs.fn Cert.Pre_finite_inputs.fn_part1 at h0
  dsimp only at h0
  obtain ⟨h013, h4⟩ := IntOp.andi_eq_one.1 h0
  obtain ⟨h01, h3⟩ := IntOp.andi_eq_one.1 h013
  obtain ⟨h0', h2⟩ := IntOp.andi_eq_one.1 h01
  exact ⟨real_of_all _ _ _ x0 h0', real_of_all _ _ _ x2 h2, real_of_all _ _ _ x3 h3, real_of_all _ _ _ x4 h4⟩

end Cert.Pre_finite_inputs.Finite

end
-- ==== Proof.lean ====
/-
  The claim: the Pallas kernel's program (eight tiles of 2048 rows, two accumulators, the host dividing, weighting
  and adding afterwards), its idealization, and the jnp reference (everything at once) all run and leave their
  arguments unchanged, and at the extended reals the idealized kernel and the idealized reference end with the same
  number, 0.8 · loss1 + 0.2 · loss2.

  Both results are functions of the row terms `row1` (target softmax times smoothed log-probability, summed over a
  row) and `row2` (probability times smoothed log-probability): the kernel's is `Cert.Loss.tiled` of them by flat
  row number, the reference's `Cert.Loss.whole` of them by batch entry and position. The kernel selects the per-tag
  power `score[t] ^ (1 − count[t] / 512)` at the tag's position; the reference gathers score and exponent by the tag
  first: the same entry where the one-hot test holds. The two forms agree because, the float inputs being finite,
  every row term is a real number, over which negation distributes over the tile sums. The ideal pass rewrote
  nothing, so the preservation conjunct is trivial.
-/
import proofs.«407716_j68401649156201_1_alg».proof.Defs
import proofs.«407716_j68401649156201_1_alg».proof.Proof.Gen.Kernel
import proofs.«407716_j68401649156201_1_alg».proof.Proof.Gen.Kernel.Skeleton
import proofs.«407716_j68401649156201_1_alg».proof.Proof.Gen.Kernel.Launch
import proofs.«407716_j68401649156201_1_alg».proof.Proof.Gen.Kernel.Points
import proofs.«407716_j68401649156201_1_alg».proof.Proof.Gen.Kernel.Frame
import proofs.«407716_j68401649156201_1_alg».proof.Proof.Gen.KernelIdeal
import proofs.«407716_j68401649156201_1_alg».proof.Proof.Gen.KernelIdeal.Skeleton
import proofs.«407716_j68401649156201_1_alg».proof.Proof.Gen.KernelIdeal.Launch
import proofs.«407716_j68401649156201_1_alg».proof.Proof.Gen.KernelIdeal.Points
import proofs.«407716_j68401649156201_1_alg».proof.Proof.Gen.KernelIdeal.Frame
import proofs.«407716_j68401649156201_1_alg».proof.Proof.Gen.ReferenceIdeal
import proofs.«407716_j68401649156201_1_alg».proof.Proof.Gen.ReferenceIdeal.Run
import proofs.«407716_j68401649156201_1_alg».proof.Proof.Gen.ReferenceIdeal.Read
import proofs.«407716_j68401649156201_1_alg».proof.Proof.Gen.Pre_finite_inputs
import proofs.«407716_j68401649156201_1_alg».proof.Proof.SpecSum
import proofs.«407716_j68401649156201_1_alg».proof.Proof.KValue
import proofs.«407716_j68401649156201_1_alg».proof.Proof.RefValue
import proofs.«407716_j68401649156201_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The per-tag powers are computed from the tags and scores by the same operations in both programs. -/
theorem valtag_eq (tags : IVec Cert.KernelIdeal.S32x512 32) (ts : FVec Ideal Cert.KernelIdeal.S50 .f32) :
    Cert.KernelIdeal.Blocks.valtagK (F := Ideal) tags ts = Cert.ReferenceIdeal.RefValue.valtagR tags ts := by
  unfold Cert.KernelIdeal.Blocks.valtagK Cert.ReferenceIdeal.RefValue.valtagR
  exact congrArg (Host.powf ts) rfl

theorem algebraic : Cert.algebraic_KernelIdeal_ReferenceIdeal := by
  intro m ρ m' ρ' hpre hagree
  refine ⟨fun c => (fun _ => Cert.KernelIdeal.Value.result m c), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v80_eq, (hagree c).1, (hagree c).2.1, (hagree c).2.2.1, (hagree c).2.2.2.1, (hagree c).2.2.2.2,
    Cert.ReferenceIdeal.RefValue.ref_eq]
  funext _
  obtain ⟨h0, h2, h3, h4⟩ := Cert.Pre_finite_inputs.Finite.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (hpre c)
  unfold Cert.KernelIdeal.Value.result
  dsimp only
  rw [valtag_eq]
  exact (Cert.Loss.tiled_eq_whole_arrays _ _ _ _ _ h0 (Cert.ReferenceIdeal.RefValue.valtagR_real _ _ h2) h3 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
